-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S_ : Shape := ⟨0, ![]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S4 : S_.BroadcastsInDim S4 (![] : Fin 0 → Fin S4.rank)
  reducesTo_S4_S_d0 : S4.ReducesTo [0] S_
  bcast_S_S128x10 : S_.BroadcastsInDim S128x10 (![] : Fin 0 → Fin S128x10.rank)
  reducesTo_S128x10_S_d0_1 : S128x10.ReducesTo [0, 1] S_
  bcast_S_S128 : S_.BroadcastsInDim S128 (![] : Fin 0 → Fin S128.rank)
  reducesTo_S128_S_d0 : S128.ReducesTo [0] S_
  bcast_S_S15x128 : S_.BroadcastsInDim S15x128 (![] : Fin 0 → Fin S15x128.rank)
  reducesTo_S15x128_S_d0_1 : S15x128.ReducesTo [0, 1] S_
  bcast_S_S15 : S_.BroadcastsInDim S15 (![] : Fin 0 → Fin S15.rank)
  reducesTo_S15_S_d0 : S15.ReducesTo [0] S_
  bcast_S_S4x128 : S_.BroadcastsInDim S4x128 (![] : Fin 0 → Fin S4x128.rank)
  reducesTo_S4x128_S_d0_1 : S4x128.ReducesTo [0, 1] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S128x10 .f32) (main_arg8 : FVec F S128 .f32) (main_arg9 : FVec F S4x128 .f32) (main_arg10 : FVec F S4 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S128 .f32) (main_arg5 : FVec F S15x128 .f32) (main_arg6 : FVec F S15 .f32) (main_arg7 : FVec F S128x10 .f32) (main_arg8 : FVec F S128 .f32) (main_arg9 : FVec F S4x128 .f32) (main_arg10 : FVec F S4 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S15x128 .f32 := Host.absf main_arg5
  let main_cst_8 : FVec F S_ .f32 := constant S_ .f32 0x7F800000#32
  let main_v25 : FVec F S15x128 .f32 := broadcastInDim S15x128 ![] bcast_S_S15x128 main_cst_8
  let main_v26 : IVec S15x128 1 := cmpf .olt main_v24 main_v25
  let main_c_9 : IVec S_ 1 := constantI S_ 1 1#1
  let main_v27 : IVec S_ 1 := (fun x v => Host.reduce IntOp.andi x v reducesTo_S15x128_S_d0_1 h_S_) main_v26 main_c_9
  let main_v28 : IVec S_ 1 := andi main_v23 main_v27
  let main_v29 : FVec F S15 .f32 := Host.absf main_arg6
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S500000x6 .f32) (main_arg1 : FVec F S500000x4 .f32) (main_arg2 : FVec F S4 .f32) (main_arg3 : FVec F S128x10 .f32) (main_arg4 : FVec F S128 .f32) (main_arg5 : FVec F S15x128 .f32) (main_arg6 : FVec F S15 .f32) (main_arg7 : FVec F S128x10 .f32) (main_arg8 : FVec F S128 .f32) (main_arg9 : FVec F S4x128 .f32) (main_arg10 : FVec F S4 .f32) : IVec S_ 1 :=
  let main_v0 : FVec F S500000x6 .f32 := Host.absf main_arg0
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S500000x4 .f32 := Host.absf main_arg1
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S128x10 .f32 := Host.absf main_arg3
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg4 main_arg5 main_arg6 main_arg7 main_arg8 main_arg9 main_arg10 main_v13 main_v16
-- ==== Kernel.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S6x500000 : Shape := ⟨2, ![6, 500000]⟩
abbrev S4x500000 : Shape := ⟨2, ![4, 500000]⟩
abbrev S_ : Shape := ⟨0, ![]⟩
abbrev S6x507904 : Shape := ⟨2, ![6, 507904]⟩
abbrev S4x507904 : Shape := ⟨2, ![4, 507904]⟩
abbrev S4x1 : Shape := ⟨2, ![4, 1]⟩
abbrev S128x1 : Shape := ⟨2, ![128, 1]⟩
abbrev S15x1 : Shape := ⟨2, ![15, 1]⟩
abbrev S6x16384 : Shape := ⟨2, ![6, 16384]⟩
abbrev S4x16384 : Shape := ⟨2, ![4, 16384]⟩
abbrev S10x16384 : Shape := ⟨2, ![10, 16384]⟩
abbrev S128x16384 : Shape := ⟨2, ![128, 16384]⟩
abbrev S15x16384 : Shape := ⟨2, ![15, 16384]⟩
abbrev S2x16384 : Shape := ⟨2, ![2, 16384]⟩
abbrev S1x16384 : Shape := ⟨2, ![1, 16384]⟩

abbrev nBuf : Space → Nat
  | .hbm => 30
  | .vmem => 17
  | .smem => 0
  | _ => 0

abbrev bufTy : (tb : Table) → Fin (tcTables nBuf tb) → BufTy
  | .hbm, ⟨0, _⟩ => ⟨S500000x6, .f32⟩
  | .hbm, ⟨1, _⟩ => ⟨S500000x4, .f32⟩
  | .hbm, ⟨2, _⟩ => ⟨S4, .f32⟩
  | .hbm, ⟨3, _⟩ => ⟨S128x10, .f32⟩
  | .hbm, ⟨4, _⟩ => ⟨S128, .f32⟩
  | .hbm, ⟨5, _⟩ => ⟨S15x128, .f32⟩
  | .hbm, ⟨6, _⟩ => ⟨S15, .f32⟩
  | .hbm, ⟨7, _⟩ => ⟨S128x10, .f32⟩
  | .hbm, ⟨8, _⟩ => ⟨S128, .f32⟩
  | .hbm, ⟨9, _⟩ => ⟨S4x128, .f32⟩
  | .hbm, ⟨10, _⟩ => ⟨S4, .f32⟩
  | .hbm, ⟨11, _⟩ => ⟨S6x500000, .f32⟩
  | .hbm, ⟨12, _⟩ => ⟨S4x500000, .f32⟩
  | .hbm, ⟨13, _⟩ => ⟨S_, .i32⟩
  | .hbm, ⟨14, _⟩ => ⟨S_, .f32⟩
  | .hbm, ⟨15, _⟩ => ⟨S6x507904, .f32⟩
  | .hbm, ⟨16, _⟩ => ⟨S_, .i32⟩
  | .hbm, ⟨17, _⟩ => ⟨S_, .f32⟩
  | .hbm, ⟨18, _⟩ => ⟨S4x507904, .f32⟩
  | .hbm, ⟨19, _⟩ => ⟨S4x1, .f32⟩
  | .hbm, ⟨20, _⟩ => ⟨S128x1, .f32⟩
  | .hbm, ⟨21, _⟩ => ⟨S15x1, .f32⟩
  | .hbm, ⟨22, _⟩ => ⟨S128x1, .f32⟩
  | .hbm, ⟨23, _⟩ => ⟨S4x1, .f32⟩
  | .hbm, ⟨24, _⟩ => ⟨S4x507904, .f32⟩
  | .hbm, ⟨25, _⟩ => ⟨S4x507904, .f32⟩
  | .hbm, ⟨26, _⟩ => ⟨S4x500000, .f32⟩
  | .hbm, ⟨27, _⟩ => ⟨S500000x4, .f32⟩
  | .hbm, ⟨28, _⟩ => ⟨S4x500000, .f32⟩
  | .hbm, ⟨29, _⟩ => ⟨S500000x4, .f32⟩
  | .local _ .vmem, ⟨0, _⟩ => ⟨S6x16384, .f32⟩
  | .local _ .vmem, ⟨1, _⟩ => ⟨S6x16384, .f32⟩
  | .local _ .vmem, ⟨2, _⟩ => ⟨S4x16384, .f32⟩
  | .local _ .vmem, ⟨3, _⟩ => ⟨S4x16384, .f32⟩
  | .local _ .vmem, ⟨4, _⟩ => ⟨S4x1, .f32⟩
  | .local _ .vmem, ⟨5, _⟩ => ⟨S128x10, .f32⟩
  | .local _ .vmem, ⟨6, _⟩ => ⟨S128x1, .f32⟩
  | .local _ .vmem, ⟨7, _⟩ => ⟨S15x128, .f32⟩
  | .local _ .vmem, ⟨8, _⟩ => ⟨S15x1, .f32⟩
  | .local _ .vmem, ⟨9, _⟩ => ⟨S128x10, .f32⟩
  | .local _ .vmem, ⟨10, _⟩ => ⟨S128x1, .f32⟩
  | .local _ .vmem, ⟨11, _⟩ => ⟨S4x128, .f32⟩
  | .local _ .vmem, ⟨12, _⟩ => ⟨S4x1, .f32⟩
  | .local _ .vmem, ⟨13, _⟩ => ⟨S4x16384, .f32⟩
  | .local _ .vmem, ⟨14, _⟩ => ⟨S4x16384, .f32⟩
  | .local _ .vmem, ⟨15, _⟩ => ⟨S4x16384, .f32⟩
  | .local _ .vmem, ⟨16, _⟩ => ⟨S4x16384, .f32⟩
  | _, _ => ⟨S500000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x16384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S500000x6_S6x500000_1_0 : S500000x6.Transposes [1, 0] S6x500000
  transposes_S500000x4_S4x500000_1_0 : S500000x4.Transposes [1, 0] S4x500000
  pads_S6x500000_S6x507904_000_079040 : S6x500000.Pads (![0, 0] : Fin 2 → Nat) ![0, 7904] ![0, 0] S6x507904
  h_S_ : 0 < S_.numel
  pads_S4x500000_S4x507904_000_079040 : S4x500000.Pads (![0, 0] : Fin 2 → Nat) ![0, 7904] ![0, 0] S4x507904
  shapeCasts_S4_S4x1 : S4.ShapeCasts S4x1
  shapeCasts_S128_S128x1 : S128.ShapeCasts S128x1
  shapeCasts_S15_S15x1 : S15.ShapeCasts S15x1
  inb_S6x16384_S6x16384_0_0 : ∀ a, (![0, 0] : Fin 2 → Nat) a + S6x16384.size a ≤ S6x16384.size a
  h_S6x16384 : 0 < S6x16384.numel
  shapeCasts_S6x16384_S6x16384 : S6x16384.ShapeCasts S6x16384
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  concatenates_S6x16384_S4x16384_S10x16384_d0 : Shape.Concatenates [S6x16384, S4x16384] S10x16384 0
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S15x128_S15x128_0_0 : ∀ a, (![0, 0] : Fin 2 → Nat) a + S15x128.size a ≤ S15x128.size a
  h_S15x128 : 0 < S15x128.numel
  inb_S15x1_S15x1_0_0 : ∀ a, (![0, 0] : Fin 2 → Nat) a + S15x1.size a ≤ S15x1.size a
  h_S15x1 : 0 < S15x1.numel
  shapeCasts_S15x1_S15x1 : S15x1.ShapeCasts S15x1
  broadcasts_S15x1_S15x16384 : S15x1.Broadcasts S15x16384
  inb_S4x128_S4x128_0_0 : ∀ a, (![0, 0] : Fin 2 → Nat) a + S4x128.size a ≤ S4x128.size a
  h_S4x128 : 0 < S4x128.numel
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x16384 : S4x1.Broadcasts S4x16384
  slices_S6x16384_o4_0_S2x16384 : S6x16384.Slices ![4, 0] S2x16384
  concatenates_S4x16384_S2x16384_S6x16384_d0 : Shape.Concatenates [S4x16384, S2x16384] S6x16384 0
  slices_S4x16384_o0_0_S1x16384 : S4x16384.Slices ![0, 0] S1x16384
  slices_S15x16384_o0_0_S1x16384 : S15x16384.Slices ![0, 0] S1x16384
  slices_S6x16384_o0_0_S1x16384 : S6x16384.Slices ![0, 0] S1x16384
  slices_S6x16384_o1_0_S1x16384 : S6x16384.Slices ![1, 0] S1x16384
  slices_S15x16384_o1_0_S1x16384 : S15x16384.Slices ![1, 0] S1x16384
  slices_S6x16384_o2_0_S1x16384 : S6x16384.Slices ![2, 0] S1x16384
  slices_S15x16384_o2_0_S1x16384 : S15x16384.Slices ![2, 0] S1x16384
  slices_S6x16384_o3_0_S1x16384 : S6x16384.Slices ![3, 0] S1x16384
  slices_S15x16384_o3_0_S1x16384 : S15x16384.Slices ![3, 0] S1x16384
  slices_S6x16384_o4_0_S1x16384 : S6x16384.Slices ![4, 0] S1x16384
  slices_S15x16384_o4_0_S1x16384 : S15x16384.Slices ![4, 0] S1x16384
  slices_S6x16384_o5_0_S1x16384 : S6x16384.Slices ![5, 0] S1x16384
  slices_S4x16384_o1_0_S1x16384 : S4x16384.Slices ![1, 0] S1x16384
  slices_S15x16384_o5_0_S1x16384 : S15x16384.Slices ![5, 0] S1x16384
  slices_S15x16384_o6_0_S1x16384 : S15x16384.Slices ![6, 0] S1x16384
  slices_S15x16384_o7_0_S1x16384 : S15x16384.Slices ![7, 0] S1x16384
  slices_S15x16384_o8_0_S1x16384 : S15x16384.Slices ![8, 0] S1x16384
  slices_S4x16384_o2_0_S1x16384 : S4x16384.Slices ![2, 0] S1x16384
  slices_S15x16384_o9_0_S1x16384 : S15x16384.Slices ![9, 0] S1x16384
  slices_S15x16384_o10_0_S1x16384 : S15x16384.Slices ![10, 0] S1x16384
  slices_S15x16384_o11_0_S1x16384 : S15x16384.Slices ![11, 0] S1x16384
  slices_S4x16384_o3_0_S1x16384 : S4x16384.Slices ![3, 0] S1x16384
  slices_S15x16384_o12_0_S1x16384 : S15x16384.Slices ![12, 0] S1x16384
  slices_S15x16384_o13_0_S1x16384 : S15x16384.Slices ![13, 0] S1x16384
  concatenates_S1x16384_S1x16384_S1x16384_S1x16384_S4x16384_d0 : Shape.Concatenates [S1x16384, S1x16384, S1x16384, S1x16384] S4x16384 0
  slices_S4x507904_S4x500000_0_0 : S4x507904.Slices ![0, 0] S4x500000
  transposes_S4x500000_S500000x4_1_0 : S4x500000.Transposes [1, 0] S500000x4
  dot_S128x10_S10x16384_S128x16384_1_0_0_1_n_n_wf : DotDims.WF S128x10 S10x16384 S128x16384 [1] [0] [0] [1] [] []
  dot_S15x128_S128x16384_S15x16384_1_0_0_1_n_n_wf : DotDims.WF S15x128 S128x16384 S15x16384 [1] [0] [0] [1] [] []
  dot_S4x128_S128x16384_S4x16384_1_0_0_1_n_n_wf : DotDims.WF S4x128 S128x16384 S4x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x16384.size a ≤ S6x507904.size a
  hwx0_0 : ∀ i : grid0.Coords, EltTy.bits .f32 = 32 ∨ (Rect.block (s := S6x507904) S6x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x507904.size a
  hwx0_1 : ∀ i : grid0.Coords, EltTy.bits .f32 = 32 ∨ (Rect.block (s := S4x507904) S4x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x10.size a ≤ S128x10.size a
  hwx0_3 : ∀ i : grid0.Coords, EltTy.bits .f32 = 32 ∨ (Rect.block (s := S128x10) S128x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x128.size a ≤ S15x128.size a
  hwx0_5 : ∀ i : grid0.Coords, EltTy.bits .f32 = 32 ∨ (Rect.block (s := S15x128) S15x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x1.size a ≤ S15x1.size a
  hwx0_6 : ∀ i : grid0.Coords, EltTy.bits .f32 = 32 ∨ (Rect.block (s := S15x1) S15x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S128x10.size a
  hwx0_7 : ∀ i : grid0.Coords, EltTy.bits .f32 = 32 ∨ (Rect.block (s := S128x10) S128x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x128.size a ≤ S4x128.size a
  hwx0_9 : ∀ i : grid0.Coords, EltTy.bits .f32 = 32 ∨ (Rect.block (s := S4x128) S4x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1.size a ≤ S4x1.size a
  hwx0_10 : ∀ i : grid0.Coords, EltTy.bits .f32 = 32 ∨ (Rect.block (s := S4x1) S4x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x16384.size a ≤ S4x507904.size a
  hwx0_11 : ∀ i : grid0.Coords, EltTy.bits .f32 = 32 ∨ (Rect.block (s := S4x507904) S4x16384.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x16384.size a ≤ S4x507904.size a
  hwx0_12 : ∀ i : grid0.Coords, EltTy.bits .f32 = 32 ∨ (Rect.block (s := S4x507904) S4x16384.size (cc0_transform_12 i) (hinb0_12 i)).WholeWords (EltTy.packing .f32)

variable [Facts₀]

def dot_S128x10_S10x16384_S128x16384_1_0_0_1_n_n : DotDims S128x10 S10x16384 S128x16384 where
  lhsContracting := [1]
  rhsContracting := [0]
  lhsNonContracting := [0]
  rhsNonContracting := [1]
  lhsBatch := []
  rhsBatch := []
  wf := dot_S128x10_S10x16384_S128x16384_1_0_0_1_n_n_wf
def dot_S15x128_S128x16384_S15x16384_1_0_0_1_n_n : DotDims S15x128 S128x16384 S15x16384 where
  lhsContracting := [1]
  rhsContracting := [0]
  lhsNonContracting := [0]
  rhsNonContracting := [1]
  lhsBatch := []
  rhsBatch := []
  wf := dot_S15x128_S128x16384_S15x16384_1_0_0_1_n_n_wf
def dot_S4x128_S128x16384_S4x16384_1_0_0_1_n_n : DotDims S4x128 S128x16384 S4x16384 where
  lhsContracting := [1]
  rhsContracting := [0]
  lhsNonContracting := [0]
  rhsNonContracting := [1]
  lhsBatch := []
  rhsBatch := []
  wf := dot_S4x128_S128x16384_S4x16384_1_0_0_1_n_n_wf

abbrev win0_0 : Pipeline.Window sig grid0 :=
  Pipeline.Window.ofSpec (Memref.whole main_v2) S6x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S15x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S15x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S4x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S4x16384.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S4x16384.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S4x6 : Shape := ⟨2, ![4, 6]⟩
abbrev S500000x2 : Shape := ⟨2, ![500000, 2]⟩
abbrev S500000x10 : Shape := ⟨2, ![500000, 10]⟩
abbrev S10x128 : Shape := ⟨2, ![10, 128]⟩
abbrev S500000x128 : Shape := ⟨2, ![500000, 128]⟩
abbrev S1x128 : Shape := ⟨2, ![1, 128]⟩
abbrev S128x15 : Shape := ⟨2, ![128, 15]⟩
abbrev S500000x15 : Shape := ⟨2, ![500000, 15]⟩
abbrev S1x15 : Shape := ⟨2, ![1, 15]⟩
abbrev S_ : Shape := ⟨0, ![]⟩
abbrev S128x4 : Shape := ⟨2, ![128, 4]⟩
abbrev S1x4 : Shape := ⟨2, ![1, 4]⟩
abbrev S4x6x1 : Shape := ⟨3, ![4, 6, 1]⟩
abbrev S500000x4x6 : Shape := ⟨3, ![500000, 4, 6]⟩
abbrev S500000x1x6 : Shape := ⟨3, ![500000, 1, 6]⟩
abbrev S500000x4x1 : Shape := ⟨3, ![500000, 4, 1]⟩

abbrev nBuf : Space → Nat
  | .hbm => 84
  | .vmem => 0
  | .smem => 0
  | _ => 0

abbrev bufTy : (tb : Table) → Fin (tcTables nBuf tb) → BufTy
  | .hbm, ⟨0, _⟩ => ⟨S500000x6, .f32⟩
  | .hbm, ⟨1, _⟩ => ⟨S500000x4, .f32⟩
  | .hbm, ⟨2, _⟩ => ⟨S4, .f32⟩
  | .hbm, ⟨3, _⟩ => ⟨S128x10, .f32⟩
  | .hbm, ⟨4, _⟩ => ⟨S128, .f32⟩
  | .hbm, ⟨5, _⟩ => ⟨S15x128, .f32⟩
  | .hbm, ⟨6, _⟩ => ⟨S15, .f32⟩
  | .hbm, ⟨7, _⟩ => ⟨S128x10, .f32⟩
  | .hbm, ⟨8, _⟩ => ⟨S128, .f32⟩
  | .hbm, ⟨9, _⟩ => ⟨S4x128, .f32⟩
  | .hbm, ⟨10, _⟩ => ⟨S4, .f32⟩
  | .hbm, ⟨11, _⟩ => ⟨S4x6, .i32⟩
  | .hbm, ⟨12, _⟩ => ⟨S500000x2, .f32⟩
  | .hbm, ⟨13, _⟩ => ⟨S500000x6, .f32⟩
  | .hbm, ⟨14, _⟩ => ⟨S500000x10, .f32⟩
  | .hbm, ⟨15, _⟩ => ⟨S10x128, .f32⟩
  | .hbm, ⟨16, _⟩ => ⟨S500000x128, .f32⟩
  | .hbm, ⟨17, _⟩ => ⟨S1x128, .f32⟩
  | .hbm, ⟨18, _⟩ => ⟨S500000x128, .f32⟩
  | .hbm, ⟨19, _⟩ => ⟨S500000x128, .f32⟩
  | .hbm, ⟨20, _⟩ => ⟨S500000x128, .f32⟩
  | .hbm, ⟨21, _⟩ => ⟨S128x15, .f32⟩
  | .hbm, ⟨22, _⟩ => ⟨S500000x15, .f32⟩
  | .hbm, ⟨23, _⟩ => ⟨S1x15, .f32⟩
  | .hbm, ⟨24, _⟩ => ⟨S500000x15, .f32⟩
  | .hbm, ⟨25, _⟩ => ⟨S500000x15, .f32⟩
  | .hbm, ⟨26, _⟩ => ⟨S500000x15, .f32⟩
  | .hbm, ⟨27, _⟩ => ⟨S500000x15, .f32⟩
  | .hbm, ⟨28, _⟩ => ⟨S_, .f32⟩
  | .hbm, ⟨29, _⟩ => ⟨S500000x15, .f32⟩
  | .hbm, ⟨30, _⟩ => ⟨S500000x15, .f32⟩
  | .hbm, ⟨31, _⟩ => ⟨S_, .f32⟩
  | .hbm, ⟨32, _⟩ => ⟨S500000x15, .f32⟩
  | .hbm, ⟨33, _⟩ => ⟨S500000x15, .f32⟩
  | .hbm, ⟨34, _⟩ => ⟨S10x128, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S500000x128, .f32⟩
  | .hbm, ⟨40, _⟩ => ⟨S128x4, .f32⟩
  | .hbm, ⟨41, _⟩ => ⟨S500000x4, .f32⟩
  | .hbm, ⟨42, _⟩ => ⟨S1x4, .f32⟩
  | .hbm, ⟨43, _⟩ => ⟨S500000x4, .f32⟩
  | .hbm, ⟨44, _⟩ => ⟨S500000x4, .f32⟩
  | .hbm, ⟨45, _⟩ => ⟨S500000x4, .f32⟩
  | .hbm, ⟨46, _⟩ => ⟨S_, .f32⟩
  | .hbm, ⟨47, _⟩ => ⟨S500000x4, .f32⟩
  | .hbm, ⟨48, _⟩ => ⟨S500000x4, .f32⟩
  | .hbm, ⟨49, _⟩ => ⟨S500000x4, .f32⟩
  | .hbm, ⟨50, _⟩ => ⟨S_, .i32⟩
  | .hbm, ⟨51, _⟩ => ⟨S4x6, .i32⟩
  | .hbm, ⟨52, _⟩ => ⟨S4x6, .i1⟩
  | .hbm, ⟨53, _⟩ => ⟨S_, .i32⟩
  | .hbm, ⟨54, _⟩ => ⟨S4x6, .i32⟩
  | .hbm, ⟨55, _⟩ => ⟨S4x6, .i32⟩
  | .hbm, ⟨56, _⟩ => ⟨S4x6, .i32⟩
  | .hbm, ⟨57, _⟩ => ⟨S4x6x1, .i32⟩
  | .hbm, ⟨58, _⟩ => ⟨S500000x4x6, .f32⟩
  | .hbm, ⟨59, _⟩ => ⟨S500000x1x6, .f32⟩
  | .hbm, ⟨60, _⟩ => ⟨S500000x4x1, .f32⟩
  | .hbm, ⟨61, _⟩ => ⟨S500000x4x6, .f32⟩
  | .hbm, ⟨62, _⟩ => ⟨S500000x4x6, .f32⟩
  | .hbm, ⟨63, _⟩ => ⟨S500000x4x6, .f32⟩
  | .hbm, ⟨64, _⟩ => ⟨S500000x4x6, .f32⟩
  | .hbm, ⟨65, _⟩ => ⟨S_, .f32⟩
  | .hbm, ⟨66, _⟩ => ⟨S500000x4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S500000x4, .f32⟩
  | .hbm, ⟨72, _⟩ => ⟨S1x4, .f32⟩
  | .hbm, ⟨73, _⟩ => ⟨S500000x4, .f32⟩
  | .hbm, ⟨74, _⟩ => ⟨S500000x4, .f32⟩
  | .hbm, ⟨75, _⟩ => ⟨S500000x4, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S500000x4, .f32⟩
  | .hbm, ⟨80, _⟩ => ⟨S500000x4, .f32⟩
  | .hbm, ⟨81, _⟩ => ⟨S_, .f32⟩
  | .hbm, ⟨82, _⟩ => ⟨S500000x4, .f32⟩
  | .hbm, ⟨83, _⟩ => ⟨S500000x4, .f32⟩
  | _, _ => ⟨S500000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_cst_7 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S500000x6_S500000x2_0_4 : S500000x6.Slices ![0, 4] S500000x2
  concatenates_S500000x4_S500000x2_S500000x6_d1 : Shape.Concatenates [S500000x4, S500000x2] S500000x6 1
  concatenates_S500000x6_S500000x4_S500000x10_d1 : Shape.Concatenates [S500000x6, S500000x4] S500000x10 1
  transposes_S128x10_S10x128_1_0 : S128x10.Transposes [1, 0] S10x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  transposes_S15x128_S128x15_1_0 : S15x128.Transposes [1, 0] S128x15
  bcast_S15_S1x15_1 : S15.BroadcastsInDim S1x15 (![1] : Fin 1 → Fin S1x15.rank)
  bcast_S1x15_S500000x15_0_1 : S1x15.BroadcastsInDim S500000x15 (![0, 1] : Fin 2 → Fin S500000x15.rank)
  bcast_S_S500000x15 : S_.BroadcastsInDim S500000x15 (![] : Fin 0 → Fin S500000x15.rank)
  transposes_S4x128_S128x4_1_0 : S4x128.Transposes [1, 0] S128x4
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S_S500000x4 : S_.BroadcastsInDim S500000x4 (![] : Fin 0 → Fin S500000x4.rank)
  bcast_S_S4x6 : S_.BroadcastsInDim S4x6 (![] : Fin 0 → Fin S4x6.rank)
  bcast_S4x6_S4x6x1_0_1 : S4x6.BroadcastsInDim S4x6x1 (![0, 1] : Fin 2 → Fin S4x6x1.rank)
  bcast_S500000x6_S500000x1x6_0_2 : S500000x6.BroadcastsInDim S500000x1x6 (![0, 2] : Fin 2 → Fin S500000x1x6.rank)
  bcast_S500000x4_S500000x4x1_0_1 : S500000x4.BroadcastsInDim S500000x4x1 (![0, 1] : Fin 2 → Fin S500000x4x1.rank)
  bcast_S500000x1x6_S500000x4x6_0_1_2 : S500000x1x6.BroadcastsInDim S500000x4x6 (![0, 1, 2] : Fin 3 → Fin S500000x4x6.rank)
  bcast_S500000x4x1_S500000x4x6_0_1_2 : S500000x4x1.BroadcastsInDim S500000x4x6 (![0, 1, 2] : Fin 3 → Fin S500000x4x6.rank)
  reducesTo_S500000x4x6_S500000x4_d2 : S500000x4x6.ReducesTo [2] S500000x4
  h_S_ : 0 < S_.numel
  bcast_S_S4 : S_.BroadcastsInDim S4 (![] : Fin 0 → Fin S4.rank)
  dot_S500000x10_S10x128_S500000x128_1_0_0_1_n_n_wf : DotDims.WF S500000x10 S10x128 S500000x128 [1] [0] [0] [1] [] []
  dot_S500000x128_S128x15_S500000x15_1_0_0_1_n_n_wf : DotDims.WF S500000x128 S128x15 S500000x15 [1] [0] [0] [1] [] []
  dot_S500000x128_S128x4_S500000x4_1_0_0_1_n_n_wf : DotDims.WF S500000x128 S128x4 S500000x4 [1] [0] [0] [1] [] []
  gather_S500000x15_S4x6x1_S500000x4x6_0_1_n_n_1_2_5000001_wf : GatherDims.WF S500000x15 S4x6x1 S500000x4x6 [0] [1] [] [1] [] 2 ![500000, 1]

variable [Facts₀]

def dot_S500000x10_S10x128_S500000x128_1_0_0_1_n_n : DotDims S500000x10 S10x128 S500000x128 where
  lhsContracting := [1]
  rhsContracting := [0]
  lhsNonContracting := [0]
  rhsNonContracting := [1]
  lhsBatch := []
  rhsBatch := []
  wf := dot_S500000x10_S10x128_S500000x128_1_0_0_1_n_n_wf
def dot_S500000x128_S128x15_S500000x15_1_0_0_1_n_n : DotDims S500000x128 S128x15 S500000x15 where
  lhsContracting := [1]
  rhsContracting := [0]
  lhsNonContracting := [0]
  rhsNonContracting := [1]
  lhsBatch := []
  rhsBatch := []
  wf := dot_S500000x128_S128x15_S500000x15_1_0_0_1_n_n_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x15_S4x6x1_S500000x4x6_0_1_n_n_1_2_5000001 : GatherDims S500000x15 S4x6x1 S500000x4x6 where
  offsetDims := [0]
  collapsedSliceDims := [1]
  operandBatchingDims := []
  startIndicesBatchingDims := []
  startIndexMap := [1]
  indexVectorDim := 2
  sliceSizes := ![500000, 1]
  wf := gather_S500000x15_S4x6x1_S500000x4x6_0_1_n_n_1_2_5000001_wf

class Facts : Prop extends Facts₀ where

variable [Facts]
-- ==== Proof.Spec.lean ====
/-
  One thermal cell, row by row.  For a batch row with six input features `inp` and four previous node
  temperatures `hid`, the cell forms the ten features `x = (inp, hid)`, runs two small networks over them,

    conductances   g n = logistic (Σ_h cw2 n h · tanh (Σ_k cw1 h k · x k + cb1 h) + cb2 n)        (fifteen of them)
    power loss     p i = sqrt (l i · l i + ε),   l i = Σ_h pw2 i h · tanh (Σ_k pw1 h k · x k + pb1 h) + pb2 i

  couples output node `i` to each of the six temperature nodes `T = (hid, inp 4, inp 5)` through the conductance the
  symmetric table `adj` names for the pair, and takes one explicit Euler step, clipped:

    out i = min 5 (max (-1) (hid i + (1/2 · exp (caps i)) · (Σ_j (T j - hid i) · g (adj i j) + p i))).

  Everything is over the extended reals, with the float literals kept as the words the programs print.  `cellArr` is the
  same function laid over whole argument arrays, one row of the batch per leading index.
-/
import Idealize.ShloMosaic.PureOps.Ideal
import Idealize.ShloMosaic.Lib.ValueIdx

noncomputable section

open scoped BigOperators

namespace Cert.Cell

open Idealize.ShloMosaic Idealize.ShloMosaic.ValueIdx

/-- The conductance shared by output node `i` and temperature node `j`: the upper triangle of the six nodes numbered row
    by row, mirrored, the first four rows kept.  (The diagonal reads conductance 0; its temperature difference is zero.) -/
def adj : Fin 4 → Fin 6 → Fin 15 :=
  ![![0, 0, 1, 2, 3, 4], ![0, 0, 5, 6, 7, 8], ![1, 5, 0, 9, 10, 11], ![2, 6, 9, 0, 12, 13]]

/-- The ten features of a row: its six inputs, then its four previous temperatures. -/
def feat (inp : Fin 6 → EReal) (hid : Fin 4 → EReal) (k : Fin 10) : EReal :=
  if h : k.val < 6 then inp ⟨k.val, h⟩ else hid ⟨k.val - 6, by omega⟩

/-- The six temperature nodes of a row: the four previous temperatures, then inputs 4 and 5 (ambient and coolant). -/
def temps (inp : Fin 6 → EReal) (hid : Fin 4 → EReal) (j : Fin 6) : EReal :=
  if h : j.val < 4 then hid ⟨j.val, h⟩ else inp j

/-- A hidden unit: `tanh (Σ_k w h k · x k + b h)`. -/
def hidden (w : Fin 128 → Fin 10 → EReal) (b : Fin 128 → EReal) (x : Fin 10 → EReal) (h : Fin 128) : EReal :=
  Ideal.tanh ((∑ k : Fin 10, w h k * x k) + b h)

/-- Conductance `n`: the logistic function of the second layer over the hidden units. -/
def conduct (cw1 : Fin 128 → Fin 10 → EReal) (cb1 : Fin 128 → EReal) (cw2 : Fin 15 → Fin 128 → EReal) (cb2 : Fin 15 → EReal)
    (x : Fin 10 → EReal) (n : Fin 15) : EReal :=
  Ideal.logistic ((∑ h : Fin 128, cw2 n h * hidden cw1 cb1 x h) + cb2 n)

/-- The linear read-out of the power-loss network at output node `i`. -/
def lossLin (pw1 : Fin 128 → Fin 10 → EReal) (pb1 : Fin 128 → EReal) (pw2 : Fin 4 → Fin 128 → EReal) (pb2 : Fin 4 → EReal)
    (x : Fin 10 → EReal) (i : Fin 4) : EReal :=
  (∑ h : Fin 128, pw2 i h * hidden pw1 pb1 x h) + pb2 i

/-- Power loss at node `i`: the smooth absolute value `sqrt (l · l + ε)` of the read-out. -/
def loss (pw1 : Fin 128 → Fin 10 → EReal) (pb1 : Fin 128 → EReal) (pw2 : Fin 4 → Fin 128 → EReal) (pb2 : Fin 4 → EReal)
    (x : Fin 10 → EReal) (i : Fin 4) : EReal :=
  Ideal.sqrt (lossLin pw1 pb1 pw2 pb2 x i * lossLin pw1 pb1 pw2 pb2 x i + Ideal.ofBits .f32 0x358637BD#32)

/-- Heat flowing into node `i`: over the six temperature nodes, the difference to node `i` times the pair's conductance. -/
def flow (inp : Fin 6 → EReal) (hid : Fin 4 → EReal) (g : Fin 15 → EReal) (i : Fin 4) : EReal :=
  ∑ j : Fin 6, (temps inp hid j - hid i) * g (adj i j)

/-- One clipped Euler step of node `i` of a row. -/
def cell (inp : Fin 6 → EReal) (hid : Fin 4 → EReal) (caps : Fin 4 → EReal)
    (cw1 : Fin 128 → Fin 10 → EReal) (cb1 : Fin 128 → EReal) (cw2 : Fin 15 → Fin 128 → EReal) (cb2 : Fin 15 → EReal)
    (pw1 : Fin 128 → Fin 10 → EReal) (pb1 : Fin 128 → EReal) (pw2 : Fin 4 → Fin 128 → EReal) (pb2 : Fin 4 → EReal)
    (i : Fin 4) : EReal :=
  min (Ideal.ofBits .f32 0x40A00000#32) (max (Ideal.ofBits .f32 0xBF800000#32)
    (hid i + (Ideal.ofBits .f32 0x3F000000#32 * Ideal.exp (caps i))
      * (flow inp hid (conduct cw1 cb1 cw2 cb2 (feat inp hid)) i + loss pw1 pb1 pw2 pb2 (feat inp hid) i)))

/-- The cell at row `b`, node `i` of whole argument arrays (batch-major, as the entry points take them). -/
def cellAt (a0 : FVec Ideal ⟨2, ![500000, 6]⟩ .f32) (a1 : FVec Ideal ⟨2, ![500000, 4]⟩ .f32) (a2 : FVec Ideal ⟨1, ![4]⟩ .f32)
    (a3 : FVec Ideal ⟨2, ![128, 10]⟩ .f32) (a4 : FVec Ideal ⟨1, ![128]⟩ .f32) (a5 : FVec Ideal ⟨2, ![15, 128]⟩ .f32)
    (a6 : FVec Ideal ⟨1, ![15]⟩ .f32) (a7 : FVec Ideal ⟨2, ![128, 10]⟩ .f32) (a8 : FVec Ideal ⟨1, ![128]⟩ .f32)
    (a9 : FVec Ideal ⟨2, ![4, 128]⟩ .f32) (a10 : FVec Ideal ⟨1, ![4]⟩ .f32) (b : Fin 500000) (i : Fin 4) : EReal :=
  cell (fun k => a0 (ix2 b k)) (fun k => a1 (ix2 b k)) (fun n => a2 (ix1 n))
    (fun h k => a3 (ix2 h k)) (fun h => a4 (ix1 h)) (fun n h => a5 (ix2 n h)) (fun n => a6 (ix1 n))
    (fun h k => a7 (ix2 h k)) (fun h => a8 (ix1 h)) (fun n h => a9 (ix2 n h)) (fun n => a10 (ix1 n)) i

/-- The whole result array: row `b`, node `i` is the cell of row `b` at node `i`. -/
def cellArr (a0 : FVec Ideal ⟨2, ![500000, 6]⟩ .f32) (a1 : FVec Ideal ⟨2, ![500000, 4]⟩ .f32) (a2 : FVec Ideal ⟨1, ![4]⟩ .f32)
    (a3 : FVec Ideal ⟨2, ![128, 10]⟩ .f32) (a4 : FVec Ideal ⟨1, ![128]⟩ .f32) (a5 : FVec Ideal ⟨2, ![15, 128]⟩ .f32)
    (a6 : FVec Ideal ⟨1, ![15]⟩ .f32) (a7 : FVec Ideal ⟨2, ![128, 10]⟩ .f32) (a8 : FVec Ideal ⟨1, ![128]⟩ .f32)
    (a9 : FVec Ideal ⟨2, ![4, 128]⟩ .f32) (a10 : FVec Ideal ⟨1, ![4]⟩ .f32) : FVec Ideal ⟨2, ![500000, 4]⟩ .f32 :=
  fun j => cellAt a0 a1 a2 a3 a4 a5 a6 a7 a8 a9 a10 (j 0) (j 1)

theorem cellArr_apply (a0 : FVec Ideal ⟨2, ![500000, 6]⟩ .f32) (a1 : FVec Ideal ⟨2, ![500000, 4]⟩ .f32) (a2 : FVec Ideal ⟨1, ![4]⟩ .f32)
    (a3 : FVec Ideal ⟨2, ![128, 10]⟩ .f32) (a4 : FVec Ideal ⟨1, ![128]⟩ .f32) (a5 : FVec Ideal ⟨2, ![15, 128]⟩ .f32)
    (a6 : FVec Ideal ⟨1, ![15]⟩ .f32) (a7 : FVec Ideal ⟨2, ![128, 10]⟩ .f32) (a8 : FVec Ideal ⟨1, ![128]⟩ .f32)
    (a9 : FVec Ideal ⟨2, ![4, 128]⟩ .f32) (a10 : FVec Ideal ⟨1, ![4]⟩ .f32) (b : Fin 500000) (i : Fin 4) :
    cellArr a0 a1 a2 a3 a4 a5 a6 a7 a8 a9 a10 (ix2 b i) = cellAt a0 a1 a2 a3 a4 a5 a6 a7 a8 a9 a10 b i := rfl

end Cert.Cell

end
-- ==== Proof.LibPlainDot.lean ====
/-
  A plain matrix product read at one entry.  For the dimension numbers of an M×K by K×N product (the left operand's
  second axis contracted with the right operand's first), the sum over the contraction index of the operands' products at
  output entry (r, c) is the familiar Σ_k l (r, k) · r (k, c) over `Fin K`; hence a kernel's matrix unit product into a
  zero accumulator and a host's general dot product are both that sum, for any record with these dimension numbers.
-/
import Idealize.ShloMosaic.PureOps.Ideal.Laws
import Idealize.ShloMosaic.Lib.ValueIdx

noncomputable section

open scoped BigOperators

namespace Cert.LibPlainDot

open Idealize.ShloMosaic Idealize.ShloMosaic.ValueIdx

theorem contr_rank (M K N : Nat) : (DotDims.plain M K N).contr.rank = 1 := rfl

/-- The contraction shape's one axis. -/
abbrev ax (M K N : Nat) : Fin (DotDims.plain M K N).contr.rank := ⟨0, Nat.one_pos⟩

theorem lhs0 (M K N : Nat) (j : (⟨2, ![M, N]⟩ : Shape).Idx) (k : (DotDims.plain M K N).contr.Idx) :
    ((DotDims.plain M K N).lhsIdx j k 0).val = (j 0).val := rfl
theorem lhs1 (M K N : Nat) (j : (⟨2, ![M, N]⟩ : Shape).Idx) (k : (DotDims.plain M K N).contr.Idx) :
    ((DotDims.plain M K N).lhsIdx j k 1).val = (k (ax M K N)).val := rfl
theorem rhs0 (M K N : Nat) (j : (⟨2, ![M, N]⟩ : Shape).Idx) (k : (DotDims.plain M K N).contr.Idx) :
    ((DotDims.plain M K N).rhsIdx j k 0).val = (k (ax M K N)).val := rfl
theorem rhs1 (M K N : Nat) (j : (⟨2, ![M, N]⟩ : Shape).Idx) (k : (DotDims.plain M K N).contr.Idx) :
    ((DotDims.plain M K N).rhsIdx j k 1).val = (j 1).val := rfl

/-- The contraction's sum at output entry (r, c) is Σ_k l (r, k) · r (k, c). -/
theorem sum_plain (M K N : Nat) (l : (⟨2, ![M, K]⟩ : Shape).Idx → EReal) (r : (⟨2, ![K, N]⟩ : Shape).Idx → EReal)
    (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hl : (DotDims.plain M K N).lhsIdx (ix2 p c) ((contrEquiv1 (DotDims.plain M K N) K rfl rfl).symm k) = ix2 p k := by
    funext a; apply Fin.ext
    match a with
    | ⟨0, _⟩ => exact lhs0 M K N (ix2 p c) _
    | ⟨1, _⟩ => exact (lhs1 M K N (ix2 p c) _).trans (contrEquiv1_symm_val (DotDims.plain M K N) K rfl rfl k)
  have hr : (DotDims.plain M K N).rhsIdx (ix2 p c) ((contrEquiv1 (DotDims.plain M K N) K rfl rfl).symm k) = ix2 k c := by
    funext a; apply Fin.ext
    match a with
    | ⟨0, _⟩ => exact (rhs0 M K N (ix2 p c) _).trans (contrEquiv1_symm_val (DotDims.plain M K N) K rfl rfl k)
    | ⟨1, _⟩ => exact rhs1 M K N (ix2 p c) _
  rw [hl, hr]

/-- A matrix unit product into the zero accumulator, at entry (r, c). -/
theorem matmul_zero_plain (M K N : Nat) {φ₁ φ₂ : FTy} (prec : Option ContractPrecision)
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c)
      = ∑ k : Fin K, l (ix2 p k) * r (ix2 k c) :=
  (Ideal.matmul_constant_zero_apply (DotDims.plain M K N) prec l r (ix2 p c)).trans (sum_plain M K N l r p c)

/-- A host general dot product, at entry (r, c). -/
theorem dotGeneral_plain (M K N : Nat) {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (sum_plain M K N l r p c)

end Cert.LibPlainDot

end
-- ==== Proof.KernelNets.lean ====
/-
  The kernel body's two networks at one lane: with the batch on the lanes, lane `q` of a block holds one row, and the
  body's features, conductances and power loss at that lane are the cell's of that row.

  The ten feature rows are the six input rows stacked on the four temperature rows, so row `k` at lane `q` is input `k`
  of the row for `k < 6` and temperature `k - 6` otherwise.  A hidden layer is a [128,10] by [10,lanes] product plus a
  [128,1] bias column repeated along the lanes, under tanh: at (h, q) the product is Σ_k w (h, k) · x (k, q) and the repeated
  column is b (h, 0), which is the cell's hidden unit `h` over the row's features.  The conductances and the power-loss
  read-out are the second layers over those hidden rows, read the same way; the changes of format between the layers are
  the identity over the extended reals.
-/
import proofs.«160694_j13649406067340_1_alg».proof.Proof.Gen.KernelIdeal.Skeleton
import proofs.«160694_j13649406067340_1_alg».proof.Proof.Spec
import proofs.«160694_j13649406067340_1_alg».proof.Proof.LibPlainDot
import Idealize.ShloMosaic.PureOps.Ideal.Laws
import Idealize.ShloMosaic.Lib.Pipeline.Value
import Idealize.ShloMosaic.Lib.ValueLayout

noncomputable section

open scoped BigOperators

namespace Cert.KernelIdeal.CellKernel

open Cert.KernelIdeal Cert.KernelIdeal.Gen Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The ten feature rows of a block, at lane `q`. -/
theorem feat_apply (v0 : Vec Ideal S6x16384 .f32) (v2 : Vec Ideal S4x16384 .f32) (k : Fin 10) (q : Fin 16384) :
    k0_pay4 (F := Ideal) v0 v2 (ix2 k q) = Cert.Cell.feat (fun k => v0 (ix2 k q)) (fun k => v2 (ix2 k q)) k := by
  unfold k0_pay4 k0_pay2 k0_pay3
  show concatenate S10x16384 0 [⟨S6x16384, shapeCast S6x16384 v0 shapeCasts_S6x16384_S6x16384⟩,
      ⟨S4x16384, shapeCast S4x16384 v2 shapeCasts_S4x16384_S4x16384⟩] concatenates_S6x16384_S4x16384_S10x16384_d0 (ix2 k q) = _
  unfold Cert.Cell.feat
  by_cases hk : k.val < 6
  · rw [dif_pos hk]
    exact (concatenate_pair_apply_left (t := S10x16384) (s₁ := S6x16384) (s₂ := S4x16384) (0 : Fin 2) _ _ _ (ix2 k q) rfl (ix2 (⟨k.val, hk⟩ : Fin 6) q)
      (fun b => match b with | ⟨0, _⟩ => rfl | ⟨1, _⟩ => rfl)).trans (congrFun (shapeCast_self v0 _) _)
  · rw [dif_neg hk]
    exact (concatenate_pair_apply_right (t := S10x16384) (s₁ := S6x16384) (s₂ := S4x16384) (0 : Fin 2) _ _ _ (ix2 k q) rfl rfl
      (ix2 (⟨k.val - 6, by have := k.isLt; omega⟩ : Fin 4) q)
      (fun b hb => match b, hb with | ⟨0, _⟩, hb => absurd rfl hb | ⟨1, _⟩, _ => rfl)
      (by show k.val - 6 + 6 = k.val; omega)).trans (congrFun (shapeCast_self v2 _) _)

/-- A hidden layer of the body at row `h`, lane `q`: the product's sum over the ten features plus the bias column's
    entry, under tanh, which is the cell's hidden unit `h` over the row's features. -/
theorem hidden_apply (v0 : Vec Ideal S6x16384 .f32) (v2 : Vec Ideal S4x16384 .f32) (w : Vec Ideal S128x10 .f32)
    (b : Vec Ideal S128x1 .f32) (h : Fin 128) (q : Fin 16384) :
    (tanh (addf (matmul dot_S128x10_S10x16384_S128x16384_1_0_0_1_n_n none (truncf .bf16 w bitsLt_bf16_f32)
          (k0_pay4 (F := Ideal) v0 v2) (constant (F := Ideal) S128x16384 .f32 0x00000000#32))
        (broadcastTo S128x16384 (shapeCast S128x1 b shapeCasts_S128x1_S128x1) broadcasts_S128x1_S128x16384))
      : FVec Ideal S128x16384 .f32) (ix2 h q)
      = Cert.Cell.hidden (fun h k => w (ix2 h k)) (fun h => b (ix2 h (0 : Fin 1)))
          (Cert.Cell.feat (fun k => v0 (ix2 k q)) (fun k => v2 (ix2 k q))) h := by
  unfold Cert.Cell.hidden
  refine congrArg Ideal.tanh ?_
  refine congrArg₂ (· + ·)
    ((Cert.LibPlainDot.matmul_zero_plain 128 10 16384 none _ _ h q).trans (Finset.sum_congr rfl fun k _ => ?_))
    ((broadcastTo_a1_ab_apply _ _ h q).trans (congrFun (shapeCast_self b _) _))
  exact congrArg (w (ix2 h k) * ·) (feat_apply v0 v2 k q)

/-- The fifteen conductance rows of a block, at lane `q`. -/
theorem conduct_apply (v0 : Vec Ideal S6x16384 .f32) (v2 : Vec Ideal S4x16384 .f32) (v6 : Vec Ideal S128x10 .f32)
    (v8 : Vec Ideal S128x1 .f32) (v14 : Vec Ideal S15x128 .f32) (v16 : Vec Ideal S15x1 .f32) (n : Fin 15) (q : Fin 16384) :
    k0_pay5 (F := Ideal) v0 v2 v6 v8 v14 v16 (ix2 n q)
      = Cert.Cell.conduct (fun h k => v6 (ix2 h k)) (fun h => v8 (ix2 h (0 : Fin 1))) (fun n h => v14 (ix2 n h))
          (fun n => v16 (ix2 n (0 : Fin 1))) (Cert.Cell.feat (fun k => v0 (ix2 k q)) (fun k => v2 (ix2 k q))) n := by
  unfold k0_pay5 Cert.Cell.conduct
  refine congrArg Ideal.logistic ?_
  refine congrArg₂ (· + ·)
    ((Cert.LibPlainDot.matmul_zero_plain 15 128 16384 none _ _ n q).trans (Finset.sum_congr rfl fun h _ => ?_))
    ((broadcastTo_a1_ab_apply _ _ n q).trans (congrFun (shapeCast_self v16 _) _))
  exact congrArg (v14 (ix2 n h) * ·) (hidden_apply v0 v2 v6 v8 h q)

/-- The linear read-out of the power-loss network at row `i`, lane `q`. -/
theorem lossLin_apply (v0 : Vec Ideal S6x16384 .f32) (v2 : Vec Ideal S4x16384 .f32) (v23 : Vec Ideal S128x10 .f32)
    (v25 : Vec Ideal S128x1 .f32) (v31 : Vec Ideal S4x128 .f32) (v33 : Vec Ideal S4x1 .f32) (i : Fin 4) (q : Fin 16384) :
    (addf (matmul dot_S4x128_S128x16384_S4x16384_1_0_0_1_n_n none (k0_pay6 (F := Ideal) v31) (k0_pay8 (F := Ideal) v0 v2 v23 v25)
          (constant (F := Ideal) S4x16384 .f32 0x00000000#32))
        (broadcastTo S4x16384 (k0_pay7 (F := Ideal) v33) broadcasts_S4x1_S4x16384) : FVec Ideal S4x16384 .f32) (ix2 i q)
      = Cert.Cell.lossLin (fun h k => v23 (ix2 h k)) (fun h => v25 (ix2 h (0 : Fin 1))) (fun n h => v31 (ix2 n h))
          (fun n => v33 (ix2 n (0 : Fin 1))) (Cert.Cell.feat (fun k => v0 (ix2 k q)) (fun k => v2 (ix2 k q))) i := by
  unfold Cert.Cell.lossLin k0_pay6 k0_pay7 k0_pay8
  refine congrArg₂ (· + ·)
    ((Cert.LibPlainDot.matmul_zero_plain 4 128 16384 none _ _ i q).trans (Finset.sum_congr rfl fun h _ => ?_))
    ((broadcastTo_a1_ab_apply _ _ i q).trans (congrFun (shapeCast_self v33 _) _))
  exact congrArg (v31 (ix2 i h) * ·) (hidden_apply v0 v2 v23 v25 h q)

/-- The four power-loss rows of a block, at lane `q`. -/
theorem loss_apply (v0 : Vec Ideal S6x16384 .f32) (v2 : Vec Ideal S4x16384 .f32) (v23 : Vec Ideal S128x10 .f32)
    (v25 : Vec Ideal S128x1 .f32) (v31 : Vec Ideal S4x128 .f32) (v33 : Vec Ideal S4x1 .f32) (i : Fin 4) (q : Fin 16384) :
    k0_pay9 (F := Ideal) (k0_pay6 v31) (k0_pay7 v33) (k0_pay8 v0 v2 v23 v25) (ix2 i q)
      = Cert.Cell.loss (fun h k => v23 (ix2 h k)) (fun h => v25 (ix2 h (0 : Fin 1))) (fun n h => v31 (ix2 n h))
          (fun n => v33 (ix2 n (0 : Fin 1))) (Cert.Cell.feat (fun k => v0 (ix2 k q)) (fun k => v2 (ix2 k q))) i := by
  have L := lossLin_apply v0 v2 v23 v25 v31 v33 i q
  unfold k0_pay9 Cert.Cell.loss
  refine congrArg Ideal.sqrt ?_
  exact congrArg₂ (· + ·) (congrArg₂ (· * ·) L L) rfl

end Cert.KernelIdeal.CellKernel

end
-- ==== Proof.KernelCell.lean ====
/-
  What the kernel body leaves in its two output blocks, at node `i` and lane `q`: the first block is the previous
  temperatures unchanged, the second the cell of the row on that lane.

  The body stores one whole block into each output.  The first store's value is the block of previous temperatures
  `hid` itself.  The second store's value is built, lane by lane, from the block `g` of the fifteen conductances, the
  block `p` of the four power losses and the six temperature rows `T = (hid 0, …, hid 3, inp 4, inp 5)`: for each node
  `i` a row holding the unrolled sum `0 + (T 0 - hid i) · g (adj i 0) + … + (T 5 - hid i) · g (adj i 5)`, the four rows
  stacked, then `min 5 (max (-1) (hid + (1/2 · exp caps) · (rows + p)))` with the column `caps` spread along the lanes.
  Read at one lane, every slice is a row of its operand, every stack picks the piece its row falls in, the sums are the
  six-term sums of the cell's heat flow, and the two network blocks are the cell's conductances and power loss at that
  lane: the stored value is the cell of the lane's row.
-/
import proofs.«160694_j13649406067340_1_alg».proof.Proof.KernelNets
import proofs.«160694_j13649406067340_1_alg».proof.Proof.Gen.KernelIdeal.Frame

noncomputable section

open scoped BigOperators

namespace Cert.KernelIdeal.CellKernel

open Cert.KernelIdeal Cert.KernelIdeal.Gen Idealize.ShloMosaic Idealize.ShloMosaic.ValueIdx

namespace OutBlocks

/-! ## Whole-block loads and stores, and the two shape casts of a shape to itself -/

/-- The zero offsets of a rank-2 rectangle, as the constant function. -/
theorem hz2 : (![0, 0] : Fin 2 → Nat) = fun _ => 0 := funext fun a => by fin_cases a <;> rfl

/-- Casting the input block to its own shape changes nothing. -/
theorem pay2_eq (v0 : Vec Ideal S6x16384 .f32) : k0_pay2 (F := Ideal) v0 = v0 := shapeCast_self _ _

/-- Casting the block of previous temperatures to its own shape changes nothing. -/
theorem pay3_eq (v2 : Vec Ideal S4x16384 .f32) : k0_pay3 (F := Ideal) v2 = v2 := shapeCast_self _ _

/-! ## Layout operations read at one lane -/

/-- The scalar unit's constant is the extended real its word encodes. -/
theorem sofb (b : BitVec 32) : Scalar.ofBits (F := Ideal) .f32 b = Ideal.ofBits .f32 b := rfl

/-- The exponential of a block, element by element. -/
theorem expv_apply {s : Shape} {φ : FTy} (a : FVec Ideal s φ) (i : s.Idx) :
    Idealize.ShloMosaic.exp a i = Ideal.exp (a i) := rfl

/-- Row `r` of a block cut out as a one-row block, read at lane `q`, is the block at `(r, q)`; that `r` is a row of
    the block is the slice's own side condition `r + 1 ≤ n`. -/
theorem rowS_apply {n : Nat} (r : Nat) (X : (⟨2, ![n, 16384]⟩ : Shape).Idx → EReal)
    (h : (⟨2, ![n, 16384]⟩ : Shape).Slices ![r, 0] ⟨2, ![1, 16384]⟩) (q : Fin 16384) :
    extractStridedSlice ⟨2, ![1, 16384]⟩ ![r, 0] X h (ix2 (0 : Fin 1) q)
      = X (ix2 ⟨r, Nat.lt_of_lt_of_le (Nat.lt_succ_self r) (h.2 0)⟩ q) :=
  slice2_axis0_apply r X h 0 q _ rfl

/-- A column of four spread along the lanes reads, at `(p, c)`, the column at row `p`. -/
theorem bcast_col_apply (v : (⟨2, ![4, 1]⟩ : Shape).Idx → EReal) (h : (⟨2, ![4, 1]⟩ : Shape).Broadcasts ⟨2, ![4, 16384]⟩)
    (p : Fin 4) (c : Fin 16384) : broadcastTo ⟨2, ![4, 16384]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- Four one-row blocks stacked along the rows: row `i` of the stack is the `i`-th block's one row (the pieces before
    it take up `i` rows, and its own row is row `0`). -/
theorem cat4_apply (r0 r1 r2 r3 : (⟨2, ![1, 16384]⟩ : Shape).Idx → EReal)
    (h : Shape.Concatenates [S1x16384, S1x16384, S1x16384, S1x16384] S4x16384 0) (i : Fin 4) (q : Fin 16384) :
    concatenate S4x16384 0 [⟨S1x16384, r0⟩, ⟨S1x16384, r1⟩, ⟨S1x16384, r2⟩, ⟨S1x16384, r3⟩] h (ix2 i q)
      = ![r0 (ix2 (0 : Fin 1) q), r1 (ix2 (0 : Fin 1) q), r2 (ix2 (0 : Fin 1) q), r3 (ix2 (0 : Fin 1) q)] i := by
  match i with
  | ⟨0, _⟩ =>
    exact concatenate_apply_piece (t := S4x16384) (0 : Fin 2) ([⟨S1x16384, r0⟩, ⟨S1x16384, r1⟩, ⟨S1x16384, r2⟩, ⟨S1x16384, r3⟩] : List ((s : Shape) × (s.Idx → EReal))) h _ 0 (by show (0 : ℕ) < 4; decide) S1x16384 r0 rfl rfl 0 rfl (ix2 (0 : Fin 1) q)
      (fun b hb => match b, hb with | ⟨0, _⟩, hb => absurd rfl hb | ⟨1, _⟩, _ => rfl) rfl
  | ⟨1, _⟩ =>
    exact concatenate_apply_piece (t := S4x16384) (0 : Fin 2) ([⟨S1x16384, r0⟩, ⟨S1x16384, r1⟩, ⟨S1x16384, r2⟩, ⟨S1x16384, r3⟩] : List ((s : Shape) × (s.Idx → EReal))) h _ 1 (by show (1 : ℕ) < 4; decide) S1x16384 r1 rfl rfl 1 rfl (ix2 (0 : Fin 1) q)
      (fun b hb => match b, hb with | ⟨0, _⟩, hb => absurd rfl hb | ⟨1, _⟩, _ => rfl) rfl
  | ⟨2, _⟩ =>
    exact concatenate_apply_piece (t := S4x16384) (0 : Fin 2) ([⟨S1x16384, r0⟩, ⟨S1x16384, r1⟩, ⟨S1x16384, r2⟩, ⟨S1x16384, r3⟩] : List ((s : Shape) × (s.Idx → EReal))) h _ 2 (by show (2 : ℕ) < 4; decide) S1x16384 r2 rfl rfl 2 rfl (ix2 (0 : Fin 1) q)
      (fun b hb => match b, hb with | ⟨0, _⟩, hb => absurd rfl hb | ⟨1, _⟩, _ => rfl) rfl
  | ⟨3, _⟩ =>
    exact concatenate_apply_piece (t := S4x16384) (0 : Fin 2) ([⟨S1x16384, r0⟩, ⟨S1x16384, r1⟩, ⟨S1x16384, r2⟩, ⟨S1x16384, r3⟩] : List ((s : Shape) × (s.Idx → EReal))) h _ 3 (by show (3 : ℕ) < 4; decide) S1x16384 r3 rfl rfl 3 rfl (ix2 (0 : Fin 1) q)
      (fun b hb => match b, hb with | ⟨0, _⟩, hb => absurd rfl hb | ⟨1, _⟩, _ => rfl) rfl

/-! ## The six temperature rows -/

/-- The six temperature rows at lane `q`: the stack of the four previous temperatures over rows 4 and 5 of the inputs.
    A row below 4 falls in the first piece; a row `j ≥ 4` is row `j - 4` of the second piece, which is the inputs cut
    from row 4 on, so row `j` of the inputs. -/
theorem temps_apply (v0 : FVec Ideal S6x16384 .f32) (v2 : FVec Ideal S4x16384 .f32) (j : Fin 6) (q : Fin 16384) :
    k0_pay10 (F := Ideal) v0 v2 (ix2 j q) = Cert.Cell.temps (fun k => v0 (ix2 k q)) (fun k => v2 (ix2 k q)) j := by
  unfold k0_pay10 Cert.Cell.temps
  split
  · next hj =>
    exact concatenate_pair_apply_left (0 : Fin 2) v2 (extractStridedSlice S2x16384 ![4, 0] v0 slices_S6x16384_o4_0_S2x16384)
      concatenates_S4x16384_S2x16384_S6x16384_d0 (ix2 j q) rfl
      (ix2 (⟨j.val, hj⟩ : Fin 4) q) (fun b => match b with | ⟨0, _⟩ => rfl | ⟨1, _⟩ => rfl)
  · next hj =>
    have hj2 : j.val - 4 < 2 := by omega
    refine (concatenate_pair_apply_right (0 : Fin 2) v2 (extractStridedSlice S2x16384 ![4, 0] v0 slices_S6x16384_o4_0_S2x16384)
      concatenates_S4x16384_S2x16384_S6x16384_d0 (ix2 j q) rfl rfl
      (ix2 (⟨j.val - 4, hj2⟩ : Fin 2) q) (fun b hb => match b, hb with | ⟨0, _⟩, hb => absurd rfl hb | ⟨1, _⟩, _ => rfl) ?_).trans ?_
    · show j.val - 4 + 4 = j.val
      omega
    · exact slice2_axis0_apply 4 v0 slices_S6x16384_o4_0_S2x16384 ⟨j.val - 4, hj2⟩ q j (by show j.val = 4 + (j.val - 4); omega)

/-! ## The four unrolled sums

Over any conductance block `G`: node `i`'s row at lane `q` is `0 + t 0 + … + t 5` with
`t j = (T (j, q) - hid (i, q)) · G (adj i j, q)`, each factor a row slice; the leading zero goes, and what is left is
the six-term sum of the heat flow term by term, the table `adj` read at the literal pair.  Node 1's sum and node 3's
are cut across several stored values; put back together they are the same shape. -/

/-- Node 0's sum row. -/
theorem row0_apply (inp : FVec Ideal S6x16384 .f32) (hid : FVec Ideal S4x16384 .f32) (G : FVec Ideal S15x16384 .f32) (q : Fin 16384) :
    k0_pay11 (F := Ideal) inp hid G (ix2 (0 : Fin 1) q)
      = Cert.Cell.flow (fun k => inp (ix2 k q)) (fun k => hid (ix2 k q)) (fun n => G (ix2 n q)) 0 := by
  unfold k0_pay11 Cert.Cell.flow
  simp only [addf_apply, mulf_apply, subf_apply, broadcast_apply, rowS_apply, temps_apply, sofb, Ideal.ofBits_zero_f32, zero_add, Fin.sum_univ_six]
  rfl

/-- Node 1's sum row: its first two terms, its third term's two factors and its last three terms, put together. -/
theorem row1_apply (inp : FVec Ideal S6x16384 .f32) (hid : FVec Ideal S4x16384 .f32) (G : FVec Ideal S15x16384 .f32) (q : Fin 16384) :
    k0_pay16 (F := Ideal) G (k0_pay10 inp hid) (k0_pay12 hid) (k0_pay13 inp hid G) (k0_pay14 G) (k0_pay15 inp hid) (ix2 (0 : Fin 1) q)
      = Cert.Cell.flow (fun k => inp (ix2 k q)) (fun k => hid (ix2 k q)) (fun n => G (ix2 n q)) 1 := by
  unfold k0_pay16 k0_pay13 k0_pay15 k0_pay14 k0_pay12 Cert.Cell.flow
  simp only [addf_apply, mulf_apply, subf_apply, broadcast_apply, rowS_apply, temps_apply, sofb, Ideal.ofBits_zero_f32, zero_add, Fin.sum_univ_six]
  rfl

/-- Node 2's sum row. -/
theorem row2_apply (inp : FVec Ideal S6x16384 .f32) (hid : FVec Ideal S4x16384 .f32) (G : FVec Ideal S15x16384 .f32) (q : Fin 16384) :
    k0_pay17 (F := Ideal) hid G (k0_pay10 inp hid) (ix2 (0 : Fin 1) q)
      = Cert.Cell.flow (fun k => inp (ix2 k q)) (fun k => hid (ix2 k q)) (fun n => G (ix2 n q)) 2 := by
  unfold k0_pay17 Cert.Cell.flow
  simp only [addf_apply, mulf_apply, subf_apply, broadcast_apply, rowS_apply, temps_apply, sofb, Ideal.ofBits_zero_f32, zero_add, Fin.sum_univ_six]
  rfl

/-- Node 3's sum at lane `q`: its first term, its second term's factors, and its last four terms written out. -/
theorem row3_apply (inp : FVec Ideal S6x16384 .f32) (hid : FVec Ideal S4x16384 .f32) (G : FVec Ideal S15x16384 .f32) (q : Fin 16384) :
    k0_pay19 (F := Ideal) hid G (k0_pay10 inp hid) (ix2 (0 : Fin 1) q)
        + (k0_pay21 (F := Ideal) (k0_pay10 inp hid) (ix2 (0 : Fin 1) q) - k0_pay18 (F := Ideal) hid (ix2 (0 : Fin 1) q)) * k0_pay20 (F := Ideal) G (ix2 (0 : Fin 1) q)
        + (k0_pay10 (F := Ideal) inp hid (ix2 2 q) - k0_pay18 (F := Ideal) hid (ix2 (0 : Fin 1) q)) * G (ix2 9 q)
        + (k0_pay10 (F := Ideal) inp hid (ix2 3 q) - k0_pay18 (F := Ideal) hid (ix2 (0 : Fin 1) q)) * G (ix2 0 q)
        + (k0_pay10 (F := Ideal) inp hid (ix2 4 q) - k0_pay18 (F := Ideal) hid (ix2 (0 : Fin 1) q)) * G (ix2 12 q)
        + (k0_pay10 (F := Ideal) inp hid (ix2 5 q) - k0_pay18 (F := Ideal) hid (ix2 (0 : Fin 1) q)) * G (ix2 13 q)
      = Cert.Cell.flow (fun k => inp (ix2 k q)) (fun k => hid (ix2 k q)) (fun n => G (ix2 n q)) 3 := by
  unfold k0_pay19 k0_pay21 k0_pay20 k0_pay18 Cert.Cell.flow
  simp only [addf_apply, mulf_apply, subf_apply, broadcast_apply, rowS_apply, temps_apply, sofb, Ideal.ofBits_zero_f32, zero_add, Fin.sum_univ_six]
  rfl

/-- The four sums at lane `q`, node by node, are the heat flows into the four nodes. -/
theorem rows_apply (inp : FVec Ideal S6x16384 .f32) (hid : FVec Ideal S4x16384 .f32) (G : FVec Ideal S15x16384 .f32) (i : Fin 4) (q : Fin 16384) :
    ![k0_pay11 (F := Ideal) inp hid G (ix2 (0 : Fin 1) q),
      k0_pay16 (F := Ideal) G (k0_pay10 inp hid) (k0_pay12 hid) (k0_pay13 inp hid G) (k0_pay14 G) (k0_pay15 inp hid) (ix2 (0 : Fin 1) q),
      k0_pay17 (F := Ideal) hid G (k0_pay10 inp hid) (ix2 (0 : Fin 1) q),
      k0_pay19 (F := Ideal) hid G (k0_pay10 inp hid) (ix2 (0 : Fin 1) q)
        + (k0_pay21 (F := Ideal) (k0_pay10 inp hid) (ix2 (0 : Fin 1) q) - k0_pay18 (F := Ideal) hid (ix2 (0 : Fin 1) q)) * k0_pay20 (F := Ideal) G (ix2 (0 : Fin 1) q)
        + (k0_pay10 (F := Ideal) inp hid (ix2 2 q) - k0_pay18 (F := Ideal) hid (ix2 (0 : Fin 1) q)) * G (ix2 9 q)
        + (k0_pay10 (F := Ideal) inp hid (ix2 3 q) - k0_pay18 (F := Ideal) hid (ix2 (0 : Fin 1) q)) * G (ix2 0 q)
        + (k0_pay10 (F := Ideal) inp hid (ix2 4 q) - k0_pay18 (F := Ideal) hid (ix2 (0 : Fin 1) q)) * G (ix2 12 q)
        + (k0_pay10 (F := Ideal) inp hid (ix2 5 q) - k0_pay18 (F := Ideal) hid (ix2 (0 : Fin 1) q)) * G (ix2 13 q)] i
      = Cert.Cell.flow (fun k => inp (ix2 k q)) (fun k => hid (ix2 k q)) (fun n => G (ix2 n q)) i :=
  match i with
  | ⟨0, _⟩ => row0_apply inp hid G q
  | ⟨1, _⟩ => row1_apply inp hid G q
  | ⟨2, _⟩ => row2_apply inp hid G q
  | ⟨3, _⟩ => row3_apply inp hid G q

/-! ## The stored value -/

/-- The second store's value at node `i`, lane `q`, over ANY three sum rows for nodes 0, 1, 2 and any carried pieces of
    node 3's sum (its first term `s3`, and `t1`, `h3`, `g6`, the factors of its second): elementwise operations read
    at the index, the stack of the four rows at row `i`, the column `1/2 · exp caps` at row `i`. -/
theorem pay1_apply (hid : FVec Ideal S4x16384 .f32) (G : FVec Ideal S15x16384 .f32) (L : FVec Ideal S4x16384 .f32)
    (T : FVec Ideal S6x16384 .f32) (r0 r1 r2 h3 s3 g6 t1 : FVec Ideal S1x16384 .f32) (caps : Vec Ideal S4x1 .f32)
    (i : Fin 4) (q : Fin 16384) :
    k0_pay1 (F := Ideal) hid G L T r0 r1 r2 h3 s3 g6 t1 caps (ix2 i q)
      = min (Ideal.ofBits .f32 0x40A00000#32) (max (Ideal.ofBits .f32 0xBF800000#32)
          (hid (ix2 i q) + (Ideal.ofBits .f32 0x3F000000#32 * Ideal.exp (caps (ix2 i (0 : Fin 1))))
            * (![r0 (ix2 (0 : Fin 1) q), r1 (ix2 (0 : Fin 1) q), r2 (ix2 (0 : Fin 1) q),
                s3 (ix2 (0 : Fin 1) q) + (t1 (ix2 (0 : Fin 1) q) - h3 (ix2 (0 : Fin 1) q)) * g6 (ix2 (0 : Fin 1) q)
                  + (T (ix2 2 q) - h3 (ix2 (0 : Fin 1) q)) * G (ix2 9 q)
                  + (T (ix2 3 q) - h3 (ix2 (0 : Fin 1) q)) * G (ix2 0 q)
                  + (T (ix2 4 q) - h3 (ix2 (0 : Fin 1) q)) * G (ix2 12 q)
                  + (T (ix2 5 q) - h3 (ix2 (0 : Fin 1) q)) * G (ix2 13 q)] i
              + L (ix2 i q)))) := by
  unfold k0_pay1
  simp only [minimumf_apply, maximumf_apply, addf_apply, mulf_apply, subf_apply, broadcast_apply, bcast_col_apply, expv_apply,
    shapeCast_self, cat4_apply, rowS_apply, sofb]
  rfl

/-- The body after its two networks: over any conductance block `G` and power-loss block `L`, the stored value at
    node `i`, lane `q` is the clipped Euler step with the heat flow computed from `G` and the power loss read from `L`. -/
theorem body_apply (inp : FVec Ideal S6x16384 .f32) (hid : FVec Ideal S4x16384 .f32) (G : FVec Ideal S15x16384 .f32)
    (L : FVec Ideal S4x16384 .f32) (caps : Vec Ideal S4x1 .f32) (i : Fin 4) (q : Fin 16384) :
    k0_pay1 (F := Ideal) hid G L (k0_pay10 inp hid) (k0_pay11 inp hid G)
        (k0_pay16 G (k0_pay10 inp hid) (k0_pay12 hid) (k0_pay13 inp hid G) (k0_pay14 G) (k0_pay15 inp hid))
        (k0_pay17 hid G (k0_pay10 inp hid)) (k0_pay18 hid) (k0_pay19 hid G (k0_pay10 inp hid)) (k0_pay20 G)
        (k0_pay21 (k0_pay10 inp hid)) caps (ix2 i q)
      = min (Ideal.ofBits .f32 0x40A00000#32) (max (Ideal.ofBits .f32 0xBF800000#32)
          (hid (ix2 i q) + (Ideal.ofBits .f32 0x3F000000#32 * Ideal.exp (caps (ix2 i (0 : Fin 1))))
            * (Cert.Cell.flow (fun k => inp (ix2 k q)) (fun k => hid (ix2 k q)) (fun n => G (ix2 n q)) i + L (ix2 i q)))) := by
  refine (pay1_apply hid G L (k0_pay10 inp hid) _ _ _ _ _ _ _ caps i q).trans ?_
  rw [rows_apply inp hid G i q]

end OutBlocks

open OutBlocks

/-! ## The two output blocks -/

/-- The first output block is the block of previous temperatures. -/
theorem out11_apply (x0 : Vec Ideal S6x16384 .f32) (x1 : Vec Ideal S4x16384 .f32) (x2 : Vec Ideal S4x1 .f32)
    (x3 : Vec Ideal S128x10 .f32) (x4 : Vec Ideal S128x1 .f32) (x5 : Vec Ideal S15x128 .f32) (x6 : Vec Ideal S15x1 .f32)
    (x7 : Vec Ideal S128x10 .f32) (x8 : Vec Ideal S128x1 .f32) (x9 : Vec Ideal S4x128 .f32) (x10 : Vec Ideal S4x1 .f32) (i : Fin 4) (q : Fin 16384) :
    out0_11 (F := Ideal) x0 x1 x2 x3 x4 x5 x6 x7 x8 x9 x10 (ix2 i q) = x1 (ix2 i q) := by
  unfold out0_11
  rw [View.canon_unit_zero hz2, View.ld_unit_zero (S := S4x16384) hz2, pay3_eq]

/-- The second output block is the cell, lane by lane: one whole-block store of the body's value over the loaded
    blocks, whose conductance and power-loss blocks are the cell's two networks at the lane. -/
theorem out12_apply (x0 : Vec Ideal S6x16384 .f32) (x1 : Vec Ideal S4x16384 .f32) (x2 : Vec Ideal S4x1 .f32)
    (x3 : Vec Ideal S128x10 .f32) (x4 : Vec Ideal S128x1 .f32) (x5 : Vec Ideal S15x128 .f32) (x6 : Vec Ideal S15x1 .f32)
    (x7 : Vec Ideal S128x10 .f32) (x8 : Vec Ideal S128x1 .f32) (x9 : Vec Ideal S4x128 .f32) (x10 : Vec Ideal S4x1 .f32) (i : Fin 4) (q : Fin 16384) :
    out0_12 (F := Ideal) x0 x1 x2 x3 x4 x5 x6 x7 x8 x9 x10 (ix2 i q)
      = Cert.Cell.cell (fun k => x0 (ix2 k q)) (fun k => x1 (ix2 k q)) (fun n => x2 (ix2 n (0 : Fin 1)))
        (fun h k => x3 (ix2 h k)) (fun h => x4 (ix2 h (0 : Fin 1))) (fun n h => x5 (ix2 n h)) (fun n => x6 (ix2 n (0 : Fin 1)))
        (fun h k => x7 (ix2 h k)) (fun h => x8 (ix2 h (0 : Fin 1))) (fun n h => x9 (ix2 n h)) (fun n => x10 (ix2 n (0 : Fin 1))) i := by
  unfold out0_12
  rw [View.canon_unit_zero hz2]
  simp only [View.ld_unit_zero (S := S6x16384) hz2, View.ld_unit_zero (S := S4x16384) hz2, View.ld_unit_zero (S := S4x1) hz2,
    View.ld_unit_zero (S := S128x10) hz2, View.ld_unit_zero (S := S128x1) hz2, View.ld_unit_zero (S := S15x128) hz2,
    View.ld_unit_zero (S := S15x1) hz2, View.ld_unit_zero (S := S4x128) hz2, pay2_eq, pay3_eq]
  rw [body_apply x0 x1 _ _ x2 i q]
  unfold Cert.Cell.cell
  simp only [conduct_apply, loss_apply]

end Cert.KernelIdeal.CellKernel

end
-- ==== Proof.KernelArrays.lean ====
/-
  From blocks to whole arrays.  The region's arrays are lane-major: feature or node on the first axis, the (padded) batch on
  the second, cut into thirty-one blocks of 16384 lanes (31 · 16384 = 507904); the small operands are whole.  At grid point
  `t` every lane-blocked window sits at block (0, t), so lane `q` of a block is lane `16384 t + q` of its array, and every
  small operand's one block is the array itself.  Hence what point `t` writes back is the restriction to its block of one
  function of the whole arrays: the previous temperatures for the first output, the cell of each lane for the second.
  Lane `b` lies in the block of point `b / 16384` together with all four nodes, so the blocks tile the output arrays:
  after the region the first output array is the array of previous temperatures and the second the cell of every lane.
-/
import proofs.«160694_j13649406067340_1_alg».proof.Proof.KernelCell

set_option maxRecDepth 16384

noncomputable section

open scoped BigOperators

namespace Cert.KernelIdeal.CellKernel

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! The region's operand arrays as it finds them, each named at its literal type. -/
abbrev inpT (c : Dev nD) : Vec Ideal S6x507904 .f32 := V m c main_v2
abbrev hidT (c : Dev nD) : Vec Ideal S4x507904 .f32 := V m c main_v3
abbrev capsC (c : Dev nD) : Vec Ideal S4x1 .f32 := V m c main_v4
abbrev cw1A (c : Dev nD) : Vec Ideal S128x10 .f32 := V m c main_arg3
abbrev cb1C (c : Dev nD) : Vec Ideal S128x1 .f32 := V m c main_v5
abbrev cw2A (c : Dev nD) : Vec Ideal S15x128 .f32 := V m c main_arg5
abbrev cb2C (c : Dev nD) : Vec Ideal S15x1 .f32 := V m c main_v6
abbrev pw1A (c : Dev nD) : Vec Ideal S128x10 .f32 := V m c main_arg7
abbrev pb1C (c : Dev nD) : Vec Ideal S128x1 .f32 := V m c main_v7
abbrev pw2A (c : Dev nD) : Vec Ideal S4x128 .f32 := V m c main_arg9
abbrev pb2C (c : Dev nD) : Vec Ideal S4x1 .f32 := V m c main_v8

/-- The cell over lane-major arrays: node `j 0` of the row on lane `j 1`. -/
def cellT (x0 : Vec Ideal S6x507904 .f32) (x1 : Vec Ideal S4x507904 .f32) (x2 : Vec Ideal S4x1 .f32)
    (x3 : Vec Ideal S128x10 .f32) (x4 : Vec Ideal S128x1 .f32) (x5 : Vec Ideal S15x128 .f32) (x6 : Vec Ideal S15x1 .f32)
    (x7 : Vec Ideal S128x10 .f32) (x8 : Vec Ideal S128x1 .f32) (x9 : Vec Ideal S4x128 .f32) (x10 : Vec Ideal S4x1 .f32) :
    Vec Ideal S4x507904 .f32 :=
  fun j => Cert.Cell.cell (fun k => x0 (ix2 k (j 1))) (fun k => x1 (ix2 k (j 1))) (fun n => x2 (ix2 n (0 : Fin 1)))
        (fun h k => x3 (ix2 h k)) (fun h => x4 (ix2 h (0 : Fin 1))) (fun n h => x5 (ix2 n h)) (fun n => x6 (ix2 n (0 : Fin 1)))
        (fun h k => x7 (ix2 h k)) (fun h => x8 (ix2 h (0 : Fin 1))) (fun n h => x9 (ix2 n h)) (fun n => x10 (ix2 n (0 : Fin 1))) (j 0)

/-- The block index of every window at every grid point: the four lane-blocked windows sit at block (0, t), the nine
    small operands at block (0, 0). Decided once over the thirty-one points. -/
theorem block_index : ∀ t : Fin cfg0.N,
    (win0_0.index t (0 : Fin 2) = 0 ∧ win0_0.index t (1 : Fin 2) = t.val)
  ∧ (win0_1.index t (0 : Fin 2) = 0 ∧ win0_1.index t (1 : Fin 2) = t.val)
  ∧ (win0_2.index t (0 : Fin 2) = 0 ∧ win0_2.index t (1 : Fin 2) = 0)
  ∧ (win0_3.index t (0 : Fin 2) = 0 ∧ win0_3.index t (1 : Fin 2) = 0)
  ∧ (win0_4.index t (0 : Fin 2) = 0 ∧ win0_4.index t (1 : Fin 2) = 0)
  ∧ (win0_5.index t (0 : Fin 2) = 0 ∧ win0_5.index t (1 : Fin 2) = 0)
  ∧ (win0_6.index t (0 : Fin 2) = 0 ∧ win0_6.index t (1 : Fin 2) = 0)
  ∧ (win0_7.index t (0 : Fin 2) = 0 ∧ win0_7.index t (1 : Fin 2) = 0)
  ∧ (win0_8.index t (0 : Fin 2) = 0 ∧ win0_8.index t (1 : Fin 2) = 0)
  ∧ (win0_9.index t (0 : Fin 2) = 0 ∧ win0_9.index t (1 : Fin 2) = 0)
  ∧ (win0_10.index t (0 : Fin 2) = 0 ∧ win0_10.index t (1 : Fin 2) = 0)
  ∧ (win0_11.index t (0 : Fin 2) = 0 ∧ win0_11.index t (1 : Fin 2) = t.val)
  ∧ (win0_12.index t (0 : Fin 2) = 0 ∧ win0_12.index t (1 : Fin 2) = t.val) :=
  (by decide +kernel : ∀ t : Fin grid0.N, _)

/-- The block of inputs at point `t`: feature `k`, lane `q` of the block is lane `16384 t + q` of the array. -/
theorem inp_block (c : Dev nD) (t : Fin cfg0.N) (k : Fin 6) (q : Fin 16384) (b : Fin 507904)
    (hb : b.val = t.val * 16384 + q.val) :
    (iblk m c 0 t : Vec Ideal S6x16384 .f32) (ix2 k q) = inpT m c (ix2 k b) := by
  obtain ⟨h0, h1⟩ := (block_index t).1
  unfold iblk
  rw [View.read_apply]
  show V m c main_v2 _ = V m c main_v2 _
  congr 1
  funext a
  apply Fin.ext
  match a with
  | ⟨0, _⟩ => show win0_0.index t (0 : Fin 2) * 6 + 1 * k.val = k.val; omega
  | ⟨1, _⟩ => show win0_0.index t (1 : Fin 2) * 16384 + 1 * q.val = b.val; omega

/-- The block of previous temperatures at point `t`, likewise. -/
theorem hid_block (c : Dev nD) (t : Fin cfg0.N) (k : Fin 4) (q : Fin 16384) (b : Fin 507904)
    (hb : b.val = t.val * 16384 + q.val) :
    (iblk m c 1 t : Vec Ideal S4x16384 .f32) (ix2 k q) = hidT m c (ix2 k b) := by
  obtain ⟨h0, h1⟩ := (block_index t).2.1
  unfold iblk
  rw [View.read_apply]
  show V m c main_v3 _ = V m c main_v3 _
  congr 1
  funext a
  apply Fin.ext
  match a with
  | ⟨0, _⟩ => show win0_1.index t (0 : Fin 2) * 4 + 1 * k.val = k.val; omega
  | ⟨1, _⟩ => show win0_1.index t (1 : Fin 2) * 16384 + 1 * q.val = b.val; omega

/-- The heat capacities' window is the whole column: its one block, at every point, is the array. -/
theorem caps_block (c : Dev nD) (t : Fin cfg0.N) : (iblk m c 2 t : Vec Ideal S4x1 .f32) = capsC m c := by
  obtain ⟨h0, h1⟩ := (block_index t).2.2.1
  funext y
  unfold iblk
  rw [View.read_apply]
  show V m c main_v4 _ = V m c main_v4 y
  congr 1
  funext a
  apply Fin.ext
  match a with
  | ⟨0, _⟩ => show win0_2.index t (0 : Fin 2) * 4 + 1 * (y 0).val = (y 0).val; omega
  | ⟨1, _⟩ => show win0_2.index t (1 : Fin 2) * 1 + 1 * (y 1).val = (y 1).val; omega

/-- The conductance network's first weights are read whole: its one block, at every point, is the array. -/
theorem cw1_block (c : Dev nD) (t : Fin cfg0.N) : (iblk m c 3 t : Vec Ideal S128x10 .f32) = cw1A m c := by
  obtain ⟨h0, h1⟩ := (block_index t).2.2.2.1
  funext y
  unfold iblk
  rw [View.read_apply]
  show V m c main_arg3 _ = V m c main_arg3 y
  congr 1
  funext a
  apply Fin.ext
  match a with
  | ⟨0, _⟩ => show win0_3.index t (0 : Fin 2) * 128 + 1 * (y 0).val = (y 0).val; omega
  | ⟨1, _⟩ => show win0_3.index t (1 : Fin 2) * 10 + 1 * (y 1).val = (y 1).val; omega

/-- The conductance network's first biases are read whole: its one block, at every point, is the array. -/
theorem cb1_block (c : Dev nD) (t : Fin cfg0.N) : (iblk m c 4 t : Vec Ideal S128x1 .f32) = cb1C m c := by
  obtain ⟨h0, h1⟩ := (block_index t).2.2.2.2.1
  funext y
  unfold iblk
  rw [View.read_apply]
  show V m c main_v5 _ = V m c main_v5 y
  congr 1
  funext a
  apply Fin.ext
  match a with
  | ⟨0, _⟩ => show win0_4.index t (0 : Fin 2) * 128 + 1 * (y 0).val = (y 0).val; omega
  | ⟨1, _⟩ => show win0_4.index t (1 : Fin 2) * 1 + 1 * (y 1).val = (y 1).val; omega

/-- The conductance network's second weights are read whole: its one block, at every point, is the array. -/
theorem cw2_block (c : Dev nD) (t : Fin cfg0.N) : (iblk m c 5 t : Vec Ideal S15x128 .f32) = cw2A m c := by
  obtain ⟨h0, h1⟩ := (block_index t).2.2.2.2.2.1
  funext y
  unfold iblk
  rw [View.read_apply]
  show V m c main_arg5 _ = V m c main_arg5 y
  congr 1
  funext a
  apply Fin.ext
  match a with
  | ⟨0, _⟩ => show win0_5.index t (0 : Fin 2) * 15 + 1 * (y 0).val = (y 0).val; omega
  | ⟨1, _⟩ => show win0_5.index t (1 : Fin 2) * 128 + 1 * (y 1).val = (y 1).val; omega

/-- The conductance network's second biases are read whole: its one block, at every point, is the array. -/
theorem cb2_block (c : Dev nD) (t : Fin cfg0.N) : (iblk m c 6 t : Vec Ideal S15x1 .f32) = cb2C m c := by
  obtain ⟨h0, h1⟩ := (block_index t).2.2.2.2.2.2.1
  funext y
  unfold iblk
  rw [View.read_apply]
  show V m c main_v6 _ = V m c main_v6 y
  congr 1
  funext a
  apply Fin.ext
  match a with
  | ⟨0, _⟩ => show win0_6.index t (0 : Fin 2) * 15 + 1 * (y 0).val = (y 0).val; omega
  | ⟨1, _⟩ => show win0_6.index t (1 : Fin 2) * 1 + 1 * (y 1).val = (y 1).val; omega

/-- The power-loss network's first weights are read whole: its one block, at every point, is the array. -/
theorem pw1_block (c : Dev nD) (t : Fin cfg0.N) : (iblk m c 7 t : Vec Ideal S128x10 .f32) = pw1A m c := by
  obtain ⟨h0, h1⟩ := (block_index t).2.2.2.2.2.2.2.1
  funext y
  unfold iblk
  rw [View.read_apply]
  show V m c main_arg7 _ = V m c main_arg7 y
  congr 1
  funext a
  apply Fin.ext
  match a with
  | ⟨0, _⟩ => show win0_7.index t (0 : Fin 2) * 128 + 1 * (y 0).val = (y 0).val; omega
  | ⟨1, _⟩ => show win0_7.index t (1 : Fin 2) * 10 + 1 * (y 1).val = (y 1).val; omega

/-- The power-loss network's first biases are read whole: its one block, at every point, is the array. -/
theorem pb1_block (c : Dev nD) (t : Fin cfg0.N) : (iblk m c 8 t : Vec Ideal S128x1 .f32) = pb1C m c := by
  obtain ⟨h0, h1⟩ := (block_index t).2.2.2.2.2.2.2.2.1
  funext y
  unfold iblk
  rw [View.read_apply]
  show V m c main_v7 _ = V m c main_v7 y
  congr 1
  funext a
  apply Fin.ext
  match a with
  | ⟨0, _⟩ => show win0_8.index t (0 : Fin 2) * 128 + 1 * (y 0).val = (y 0).val; omega
  | ⟨1, _⟩ => show win0_8.index t (1 : Fin 2) * 1 + 1 * (y 1).val = (y 1).val; omega

/-- The power-loss network's second weights are read whole: its one block, at every point, is the array. -/
theorem pw2_block (c : Dev nD) (t : Fin cfg0.N) : (iblk m c 9 t : Vec Ideal S4x128 .f32) = pw2A m c := by
  obtain ⟨h0, h1⟩ := (block_index t).2.2.2.2.2.2.2.2.2.1
  funext y
  unfold iblk
  rw [View.read_apply]
  show V m c main_arg9 _ = V m c main_arg9 y
  congr 1
  funext a
  apply Fin.ext
  match a with
  | ⟨0, _⟩ => show win0_9.index t (0 : Fin 2) * 4 + 1 * (y 0).val = (y 0).val; omega
  | ⟨1, _⟩ => show win0_9.index t (1 : Fin 2) * 128 + 1 * (y 1).val = (y 1).val; omega

/-- The power-loss network's second biases are read whole: its one block, at every point, is the array. -/
theorem pb2_block (c : Dev nD) (t : Fin cfg0.N) : (iblk m c 10 t : Vec Ideal S4x1 .f32) = pb2C m c := by
  obtain ⟨h0, h1⟩ := (block_index t).2.2.2.2.2.2.2.2.2.2.1
  funext y
  unfold iblk
  rw [View.read_apply]
  show V m c main_v8 _ = V m c main_v8 y
  congr 1
  funext a
  apply Fin.ext
  match a with
  | ⟨0, _⟩ => show win0_10.index t (0 : Fin 2) * 4 + 1 * (y 0).val = (y 0).val; omega
  | ⟨1, _⟩ => show win0_10.index t (1 : Fin 2) * 1 + 1 * (y 1).val = (y 1).val; omega

/-- What point `t` writes back to the first output array is the array of previous temperatures, read through the
    point's block: the body copies its block of them. -/
theorem flushed11_eq (c : Dev nD) (t : Fin cfg0.N) :
    (dats m 0 c).flushed 11 t = ((cfg0.win 11).blk t).view.read (Elt Ideal) (hidT m c) := by
  show (cfg0.win 11).cut (grid0.coords t) ((dats m 0 c).after 11 t) = _
  rw [after0_11]
  refine funext fun (y : S4x16384.Idx) => ?_
  obtain ⟨i, q, rfl⟩ : ∃ (i : Fin 4) (q : Fin 16384), y = ix2 i q := ⟨y 0, y 1, eq_ix2 y⟩
  obtain ⟨h0, h1⟩ := (block_index t).2.2.2.2.2.2.2.2.2.2.2.1
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i q)
    = hidT m c (((cfg0.win 11).blk t).view.emb (ix2 i q))
  refine (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) i q).trans ?_
  refine (hid_block m c t i q (((cfg0.win 11).blk t).view.emb (ix2 i q) (1 : Fin 2)) ?_).trans ?_
  · show win0_11.index t (1 : Fin 2) * 16384 + 1 * q.val = t.val * 16384 + q.val; omega
  · show hidT m c _ = hidT m c _
    congr 1
    funext a
    match a with
    | ⟨0, _⟩ => exact Fin.ext (by show i.val = win0_11.index t (0 : Fin 2) * 4 + 1 * i.val; omega)
    | ⟨1, _⟩ => rfl

/-- An index of the first output array is in point `t`'s block iff each coordinate is in the block's range on its axis. -/
theorem mem_block11 (t : Fin cfg0.N) (j : S4x507904.Idx) :
    j ∈ ((cfg0.win 11).blk t).view.set ↔ ∀ a : Fin 2, win0_11.index t a * S4x16384.size a ≤ (j a).val ∧ (j a).val < win0_11.index t a * S4x16384.size a + S4x16384.size a := by
  show j ∈ ((View.whole main_v9_0).slice (win0_11.rect t)).set ↔ _
  rw [View.set_slice_whole, Rect.mem_set_unit]
  exact Iff.rfl

/-- The blocks tile the first output array the same way. -/
theorem cover11 (j : S4x507904.Idx) :
    ∃ t : Fin cfg0.N, (cfg0.win 11).flush t = true ∧ j ∈ ((cfg0.win 11).blk t).view.set := by
  have hj0 : (j 0).val < 4 := (j 0).isLt
  have hj1 : (j 1).val < 507904 := (j 1).isLt
  have hN : cfg0.N = 31 := N_0
  have ht : (j 1).val / 16384 < cfg0.N := by omega
  obtain ⟨h0, h1⟩ := (block_index ⟨(j 1).val / 16384, ht⟩).2.2.2.2.2.2.2.2.2.2.2.1
  refine ⟨⟨(j 1).val / 16384, ht⟩, flush0_11 _, ?_⟩
  rw [mem_block11]
  intro a
  match a with
  | ⟨0, _⟩ =>
    show win0_11.index ⟨(j 1).val / 16384, ht⟩ (0 : Fin 2) * 4 ≤ (j 0).val
      ∧ (j 0).val < win0_11.index ⟨(j 1).val / 16384, ht⟩ (0 : Fin 2) * 4 + 4
    omega
  | ⟨1, _⟩ =>
    show win0_11.index ⟨(j 1).val / 16384, ht⟩ (1 : Fin 2) * 16384 ≤ (j 1).val
      ∧ (j 1).val < win0_11.index ⟨(j 1).val / 16384, ht⟩ (1 : Fin 2) * 16384 + 16384
    have h1' : win0_11.index ⟨(j 1).val / 16384, ht⟩ (1 : Fin 2) = (j 1).val / 16384 := h1
    omega

/-- After the region the first output array is the lane-major array of previous temperatures. -/
theorem final11 (c : Dev nD) : (dats m 0 c).arrAt 11 cfg0.N = hidT m c :=
  (dats m 0 c).arrAt_eq_of_cover 11 (hidT m c) (fun t _ => flushed11_eq m c t) cover11

/-- Where an index of an output block sits in the output array at point `t`: node `i` stays node `i`, lane `q` is
    lane `16384 t + q`. -/
theorem out_block_emb (t : Fin cfg0.N) (i : Fin 4) (q : Fin 16384) :
    (((cfg0.win 12).blk t).view.emb (ix2 i q) : S4x507904.Idx) (0 : Fin 2) = i
    ∧ ((((cfg0.win 12).blk t).view.emb (ix2 i q) : S4x507904.Idx) (1 : Fin 2)).val = t.val * 16384 + q.val := by
  obtain ⟨h0, h1⟩ := (block_index t).2.2.2.2.2.2.2.2.2.2.2.2
  refine ⟨Fin.ext ?_, ?_⟩
  · show win0_12.index t (0 : Fin 2) * 4 + 1 * i.val = i.val; omega
  · show win0_12.index t (1 : Fin 2) * 16384 + 1 * q.val = t.val * 16384 + q.val; omega

/-- What point `t` writes back to the second output array is the cell of the arrays, read through the point's block. -/
theorem flushed12_eq (c : Dev nD) (t : Fin cfg0.N) :
    (dats m 0 c).flushed 12 t = ((cfg0.win 12).blk t).view.read (Elt Ideal)
      (cellT (inpT m c) (hidT m c) (capsC m c) (cw1A m c) (cb1C m c) (cw2A m c) (cb2C m c) (pw1A m c) (pb1C m c) (pw2A m c) (pb2C m c)) := by
  show (cfg0.win 12).cut (grid0.coords t) ((dats m 0 c).after 12 t) = _
  rw [after0_12]
  refine funext fun (y : S4x16384.Idx) => ?_
  obtain ⟨i, q, rfl⟩ : ∃ (i : Fin 4) (q : Fin 16384), y = ix2 i q := ⟨y 0, y 1, eq_ix2 y⟩
  obtain ⟨e0, e1⟩ := out_block_emb t i q
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i q)
    = cellT (inpT m c) (hidT m c) (capsC m c) (cw1A m c) (cb1C m c) (cw2A m c) (cb2C m c) (pw1A m c) (pb1C m c) (pw2A m c) (pb2C m c) (((cfg0.win 12).blk t).view.emb (ix2 i q))
  refine (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) i q).trans ?_
  have a0 : (fun k : Fin 6 => (iblk m c 0 t : Vec Ideal S6x16384 .f32) (ix2 k q))
      = fun k : Fin 6 => inpT m c (ix2 k (((cfg0.win 12).blk t).view.emb (ix2 i q) (1 : Fin 2))) :=
    funext fun k => inp_block m c t k q _ e1
  have a1 : (fun k : Fin 4 => (iblk m c 1 t : Vec Ideal S4x16384 .f32) (ix2 k q))
      = fun k : Fin 4 => hidT m c (ix2 k (((cfg0.win 12).blk t).view.emb (ix2 i q) (1 : Fin 2))) :=
    funext fun k => hid_block m c t k q _ e1
  rw [a0, a1, caps_block m c t, cw1_block m c t, cb1_block m c t, cw2_block m c t, cb2_block m c t,
    pw1_block m c t, pb1_block m c t, pw2_block m c t, pb2_block m c t]
  show _ = Cert.Cell.cell _ _ _ _ _ _ _ _ _ _ _ (((cfg0.win 12).blk t).view.emb (ix2 i q) (0 : Fin 2))
  rw [e0]

/-- An index of the second output array is in point `t`'s block iff each coordinate is in the block's range on its axis. -/
theorem mem_block12 (t : Fin cfg0.N) (j : S4x507904.Idx) :
    j ∈ ((cfg0.win 12).blk t).view.set ↔ ∀ a : Fin 2, win0_12.index t a * S4x16384.size a ≤ (j a).val ∧ (j a).val < win0_12.index t a * S4x16384.size a + S4x16384.size a := by
  show j ∈ ((View.whole main_v9_1).slice (win0_12.rect t)).set ↔ _
  rw [View.set_slice_whole, Rect.mem_set_unit]
  exact Iff.rfl

/-- The blocks tile the second output array: lane `b` is in the block of point `b / 16384`, with all four nodes. -/
theorem cover12 (j : S4x507904.Idx) :
    ∃ t : Fin cfg0.N, (cfg0.win 12).flush t = true ∧ j ∈ ((cfg0.win 12).blk t).view.set := by
  have hj0 : (j 0).val < 4 := (j 0).isLt
  have hj1 : (j 1).val < 507904 := (j 1).isLt
  have hN : cfg0.N = 31 := N_0
  have ht : (j 1).val / 16384 < cfg0.N := by omega
  obtain ⟨h0, h1⟩ := (block_index ⟨(j 1).val / 16384, ht⟩).2.2.2.2.2.2.2.2.2.2.2.2
  refine ⟨⟨(j 1).val / 16384, ht⟩, flush0_12 _, ?_⟩
  rw [mem_block12]
  intro a
  match a with
  | ⟨0, _⟩ =>
    show win0_12.index ⟨(j 1).val / 16384, ht⟩ (0 : Fin 2) * 4 ≤ (j 0).val
      ∧ (j 0).val < win0_12.index ⟨(j 1).val / 16384, ht⟩ (0 : Fin 2) * 4 + 4
    omega
  | ⟨1, _⟩ =>
    show win0_12.index ⟨(j 1).val / 16384, ht⟩ (1 : Fin 2) * 16384 ≤ (j 1).val
      ∧ (j 1).val < win0_12.index ⟨(j 1).val / 16384, ht⟩ (1 : Fin 2) * 16384 + 16384
    have h1' : win0_12.index ⟨(j 1).val / 16384, ht⟩ (1 : Fin 2) = (j 1).val / 16384 := h1
    omega

/-- After the region the second output array is the cell of every lane. -/
theorem final12 (c : Dev nD) :
    (dats m 0 c).arrAt 12 cfg0.N
      = cellT (inpT m c) (hidT m c) (capsC m c) (cw1A m c) (cb1C m c) (cw2A m c) (cb2C m c) (pw1A m c) (pb1C m c) (pw2A m c) (pb2C m c) :=
  (dats m 0 c).arrAt_eq_of_cover 12 (cellT (inpT m c) (hidT m c) (capsC m c) (cw1A m c) (cb1C m c) (cw2A m c) (cb2C m c) (pw1A m c) (pb1C m c) (pw2A m c) (pb2C m c))
    (fun t _ => flushed12_eq m c t) cover12

end Cert.KernelIdeal.CellKernel

end
-- ==== Proof.KernelInputs.lean ====
/-
  The region's operand arrays in terms of the entry point's arguments.  Before the region the host transposes the two
  batch arrays (rows become lanes), pads them on the lane axis with 7904 lanes of zero up to 507904 lanes, and reads each
  bias vector and the capacities as a one-column array; the four weight matrices are passed as they are.  So lane `b`
  below 500000 of feature `k` is entry (b, k) of the argument — inside the unpadded box the padding returns its operand,
  and the transposition swaps the two coordinates —, entry (n, 0) of a column is entry n of its vector (the two have the
  same row-major position n), and a weight matrix is the launch memory's.  The padded lanes are never asked about.
-/
import proofs.«160694_j13649406067340_1_alg».proof.Proof.KernelArrays
import Idealize.ShloMosaic.Lib.KernelVsHost
import Idealize.ShloMosaic.Lib.Pipeline.Value

set_option maxRecDepth 16384

noncomputable section

namespace Cert.KernelIdeal.CellKernel

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The host operations' terms -/

/-- The padded, transposed inputs as a term over the launch memory. -/
theorem inpT_term (c : Dev nD) :
    (inpT m c : S6x507904.Idx → EReal)
      = pad S6x507904 ![0, 0] ![0, 7904] ![0, 0]
          (transpose S6x500000 [1, 0] (m ((c.tc : Thread nD τ).loc main_arg0)) transposes_S500000x6_S6x500000_1_0)
          (sitofp (F := Ideal) .f32 (constantI S_ 32 0#32)) pads_S6x500000_S6x507904_000_079040 h_S_ := by
  dsimp only [inpT, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The padded, transposed previous temperatures as a term over the launch memory. -/
theorem hidT_term (c : Dev nD) :
    (hidT m c : S4x507904.Idx → EReal)
      = pad S4x507904 ![0, 0] ![0, 7904] ![0, 0]
          (transpose S4x500000 [1, 0] (m ((c.tc : Thread nD τ).loc main_arg1)) transposes_S500000x4_S4x500000_1_0)
          (sitofp (F := Ideal) .f32 (constantI S_ 32 0#32)) pads_S4x500000_S4x507904_000_079040 h_S_ := by
  dsimp only [hidT, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem capsC_term (c : Dev nD) :
    (capsC m c : S4x1.Idx → EReal) = shapeCast S4x1 (m ((c.tc : Thread nD τ).loc main_arg2)) shapeCasts_S4_S4x1 := by
  dsimp only [capsC, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem cb1C_term (c : Dev nD) :
    (cb1C m c : S128x1.Idx → EReal) = shapeCast S128x1 (m ((c.tc : Thread nD τ).loc main_arg4)) shapeCasts_S128_S128x1 := by
  dsimp only [cb1C, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem cb2C_term (c : Dev nD) :
    (cb2C m c : S15x1.Idx → EReal) = shapeCast S15x1 (m ((c.tc : Thread nD τ).loc main_arg6)) shapeCasts_S15_S15x1 := by
  dsimp only [cb2C, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem pb1C_term (c : Dev nD) :
    (pb1C m c : S128x1.Idx → EReal) = shapeCast S128x1 (m ((c.tc : Thread nD τ).loc main_arg8)) shapeCasts_S128_S128x1 := by
  dsimp only [pb1C, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem pb2C_term (c : Dev nD) :
    (pb2C m c : S4x1.Idx → EReal) = shapeCast S4x1 (m ((c.tc : Thread nD τ).loc main_arg10)) shapeCasts_S4_S4x1 := by
  dsimp only [pb2C, Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## Read at an index -/

/-- A transposed array padded on its lane axis only, read at a lane below the operand's extent: the entry of the
    untransposed array with the coordinates swapped. -/
theorem pad_transpose_apply {R K P : Nat} (x : (⟨2, ![R, K]⟩ : Shape).Idx → EReal) {u : Shape} (v : u.Idx → EReal)
    (ht : (⟨2, ![R, K]⟩ : Shape).Transposes [1, 0] ⟨2, ![K, R]⟩)
    (hp : (⟨2, ![K, R]⟩ : Shape).Pads ![0, 0] ![0, P - R] ![0, 0] ⟨2, ![K, P]⟩) (hu : 0 < u.numel)
    (k : Fin K) (b : Fin P) (hb : b.val < R) :
    pad ⟨2, ![K, P]⟩ ![0, 0] ![0, P - R] ![0, 0] (transpose ⟨2, ![K, R]⟩ [1, 0] x ht) v hp hu (ix2 k b)
      = x (ix2 (⟨b.val, hb⟩ : Fin R) k) := by
  refine (pad_apply_of_inside _ _ _ _ v hp hu (ix2 k b) (ix2 k (⟨b.val, hb⟩ : Fin R)) ?_).trans ?_
  · intro a
    match a with
    | ⟨0, _⟩ => show k.val = 0 + k.val * (0 + 1); omega
    | ⟨1, _⟩ => show b.val = 0 + b.val * (0 + 1); omega
  · exact transpose_apply _ x ht (ix2 k (⟨b.val, hb⟩ : Fin R)) (ix2 (⟨b.val, hb⟩ : Fin R) k)
      (fun a => match a with | ⟨0, _⟩ => rfl | ⟨1, _⟩ => rfl)

/-- A vector read as a one-column array: entry (n, 0) is entry n. -/
theorem column_apply {N : Nat} (x : (⟨1, ![N]⟩ : Shape).Idx → EReal)
    (h : (⟨1, ![N]⟩ : Shape).ShapeCasts ⟨2, ![N, 1]⟩) (n : Fin N) :
    shapeCast ⟨2, ![N, 1]⟩ x h (ix2 n (0 : Fin 1)) = x (ix1 n) := by
  refine shapeCast_apply x h (ix2 n (0 : Fin 1)) (ix1 n) ?_
  rw [Shape.rowMajor_val_one, Shape.rowMajor_val_two]
  show n.val = n.val * 1 + 0
  omega

theorem inpT_apply (c : Dev nD) (k : Fin 6) (b : Fin 507904) (hb : b.val < 500000) :
    inpT m c (ix2 k b) = m ((c.tc : Thread nD τ).loc main_arg0) (ix2 (⟨b.val, hb⟩ : Fin 500000) k) :=
  (congrFun (inpT_term m c) (ix2 k b)).trans
    (pad_transpose_apply (R := 500000) (K := 6) (P := 507904) _ _ transposes_S500000x6_S6x500000_1_0
      pads_S6x500000_S6x507904_000_079040 h_S_ k b hb)

theorem hidT_apply (c : Dev nD) (k : Fin 4) (b : Fin 507904) (hb : b.val < 500000) :
    hidT m c (ix2 k b) = m ((c.tc : Thread nD τ).loc main_arg1) (ix2 (⟨b.val, hb⟩ : Fin 500000) k) :=
  (congrFun (hidT_term m c) (ix2 k b)).trans
    (pad_transpose_apply (R := 500000) (K := 4) (P := 507904) _ _ transposes_S500000x4_S4x500000_1_0
      pads_S4x500000_S4x507904_000_079040 h_S_ k b hb)

theorem capsC_apply (c : Dev nD) (n : Fin 4) : capsC m c (ix2 n (0 : Fin 1)) = m ((c.tc : Thread nD τ).loc main_arg2) (ix1 n) :=
  (congrFun (capsC_term m c) (ix2 n (0 : Fin 1))).trans (column_apply _ shapeCasts_S4_S4x1 n)

theorem cw1A_eq (c : Dev nD) : cw1A m c = m ((c.tc : Thread nD τ).loc main_arg3) := V_main_arg3 m c

theorem cb1C_apply (c : Dev nD) (h : Fin 128) : cb1C m c (ix2 h (0 : Fin 1)) = m ((c.tc : Thread nD τ).loc main_arg4) (ix1 h) :=
  (congrFun (cb1C_term m c) (ix2 h (0 : Fin 1))).trans (column_apply _ shapeCasts_S128_S128x1 h)

theorem cw2A_eq (c : Dev nD) : cw2A m c = m ((c.tc : Thread nD τ).loc main_arg5) := V_main_arg5 m c

theorem cb2C_apply (c : Dev nD) (n : Fin 15) : cb2C m c (ix2 n (0 : Fin 1)) = m ((c.tc : Thread nD τ).loc main_arg6) (ix1 n) :=
  (congrFun (cb2C_term m c) (ix2 n (0 : Fin 1))).trans (column_apply _ shapeCasts_S15_S15x1 n)

theorem pw1A_eq (c : Dev nD) : pw1A m c = m ((c.tc : Thread nD τ).loc main_arg7) := V_main_arg7 m c

theorem pb1C_apply (c : Dev nD) (h : Fin 128) : pb1C m c (ix2 h (0 : Fin 1)) = m ((c.tc : Thread nD τ).loc main_arg8) (ix1 h) :=
  (congrFun (pb1C_term m c) (ix2 h (0 : Fin 1))).trans (column_apply _ shapeCasts_S128_S128x1 h)

theorem pw2A_eq (c : Dev nD) : pw2A m c = m ((c.tc : Thread nD τ).loc main_arg9) := V_main_arg9 m c

theorem pb2C_apply (c : Dev nD) (n : Fin 4) : pb2C m c (ix2 n (0 : Fin 1)) = m ((c.tc : Thread nD τ).loc main_arg10) (ix1 n) :=
  (congrFun (pb2C_term m c) (ix2 n (0 : Fin 1))).trans (column_apply _ shapeCasts_S4_S4x1 n)

end Cert.KernelIdeal.CellKernel

end
-- ==== Proof.KernelRun.lean ====
/-
  The kernel program run, read: after the region its two output arrays are cut back to the 500000 real lanes and
  transposed to batch-major, so the first result is the array of previous temperatures itself and the second the cell of
  every row; the arguments are unchanged.

  The two results are read at an index.  Entry (b, i) of a result is entry (i, b) of the cut array, which is entry (i, b)
  of the region's lane-major output array because the cut starts at lane 0 and b is below 500000.  For the first output
  that is the previous temperature of node i on lane b, which is entry (b, i) of the second argument.  For the second it
  is the cell of lane b at node i over the region's operand arrays; on a real lane each operand read there is the
  matching read of an argument (the batch arrays transposed, the bias vectors and capacities as one-column arrays, the
  weight matrices as they are), so it is the cell of row b of the arguments at node i.
-/
import proofs.«160694_j13649406067340_1_alg».proof.Proof.KernelInputs

set_option maxRecDepth 16384

noncomputable section

namespace Cert.KernelIdeal.CellKernel

open Cert.KernelIdeal Cert.KernelIdeal.Gen Idealize.ShloMosaic Idealize.ShloMosaic.TcCoe Idealize.ShloMosaic.ValueIdx Idealize.SL.Sem

section Tail

variable (m : (ℓ : Loc nD τ sig) → Buf (Elt Ideal) ℓ)

/-- A lane-major array cut back to the real lanes and transposed reads, at row `b` and node `i`, the array at node `i`
    and lane `b`: the cut starts at lane 0. -/
theorem cutT_apply (x : Vec Ideal S4x507904 .f32) (b : Fin 500000) (i : Fin 4) :
    transpose S500000x4 [1, 0] (extractStridedSlice S4x500000 ![0, 0] x slices_S4x507904_S4x500000_0_0)
        transposes_S4x500000_S500000x4_1_0 (ix2 b i)
      = x (ix2 i (⟨b.val, Nat.lt_trans b.isLt (by decide)⟩ : Fin 507904)) :=
  (transpose_ix2_apply _ transposes_S4x500000_S500000x4_1_0 b i).trans
    (slice2_axis1_apply 0 x slices_S4x507904_S4x500000_0_0 i b _ (Nat.zero_add _).symm)

/-- The first result after the tail: the region's first output array, cut and transposed. -/
theorem tail11 (c : Dev nD) :
    Pipeline.afterTail₀ cfgs (dats m) 0 (V0 m) [hostOps1] c main_v11
      = transpose S500000x4 [1, 0] (extractStridedSlice S4x500000 ![0, 0] (hidT m c) slices_S4x507904_S4x500000_0_0)
          transposes_S4x500000_S500000x4_1_0 := by
  unfold Pipeline.afterTail₀
  show StableHlo.after hostOps1 _ (Proc.devRef .tc main_v11) = _
  after_results
  exact congrArg (fun x : Vec Ideal S4x507904 .f32 => transpose S500000x4 [1, 0]
      (extractStridedSlice S4x500000 ![0, 0] x slices_S4x507904_S4x500000_0_0) transposes_S4x500000_S500000x4_1_0)
    ((Pipeline.withArrays_arr spec0 launch0.win.arr_inj c (V0 m c) (fun w => (dats m 0 c).arrAt w cfg0.N) 11).trans (final11 m c))

/-- The second result after the tail: the region's second output array, cut and transposed. -/
theorem tail13 (c : Dev nD) :
    Pipeline.afterTail₀ cfgs (dats m) 0 (V0 m) [hostOps1] c main_v13
      = transpose S500000x4 [1, 0] (extractStridedSlice S4x500000 ![0, 0]
          (cellT (inpT m c) (hidT m c) (capsC m c) (cw1A m c) (cb1C m c) (cw2A m c) (cb2C m c) (pw1A m c) (pb1C m c) (pw2A m c) (pb2C m c))
          slices_S4x507904_S4x500000_0_0) transposes_S4x500000_S500000x4_1_0 := by
  unfold Pipeline.afterTail₀
  show StableHlo.after hostOps1 _ (Proc.devRef .tc main_v13) = _
  after_results
  exact congrArg (fun x : Vec Ideal S4x507904 .f32 => transpose S500000x4 [1, 0]
      (extractStridedSlice S4x500000 ![0, 0] x slices_S4x507904_S4x500000_0_0) transposes_S4x500000_S500000x4_1_0)
    ((Pipeline.withArrays_arr spec0 launch0.win.arr_inj c (V0 m c) (fun w => (dats m 0 c).arrAt w cfg0.N) 12).trans (final12 m c))

/-- On a real lane `l` the cell over the region's lane-major operand arrays is the cell of row `l` of the arguments:
    each operand read is the matching read of an argument. -/
theorem cellT_real (c : Dev nD) (i : Fin 4) (l : Fin 507904) (hl : l.val < 500000) :
    cellT (inpT m c) (hidT m c) (capsC m c) (cw1A m c) (cb1C m c) (cw2A m c) (cb2C m c) (pw1A m c) (pb1C m c) (pw2A m c) (pb2C m c) (ix2 i l)
      = Cert.Cell.cellAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (⟨l.val, hl⟩ : Fin 500000) i := by
  have e0 : (fun k : Fin 6 => inpT m c (ix2 k l)) = fun k => m ((c.tc : Thread nD τ).loc main_arg0) (ix2 (⟨l.val, hl⟩ : Fin 500000) k) :=
    funext fun k => inpT_apply m c k l hl
  have e1 : (fun k : Fin 4 => hidT m c (ix2 k l)) = fun k => m ((c.tc : Thread nD τ).loc main_arg1) (ix2 (⟨l.val, hl⟩ : Fin 500000) k) :=
    funext fun k => hidT_apply m c k l hl
  have e2 : (fun n : Fin 4 => capsC m c (ix2 n (0 : Fin 1))) = fun n => m ((c.tc : Thread nD τ).loc main_arg2) (ix1 n) := funext fun n => capsC_apply m c n
  have e4 : (fun h : Fin 128 => cb1C m c (ix2 h (0 : Fin 1))) = fun h => m ((c.tc : Thread nD τ).loc main_arg4) (ix1 h) := funext fun h => cb1C_apply m c h
  have e6 : (fun n : Fin 15 => cb2C m c (ix2 n (0 : Fin 1))) = fun n => m ((c.tc : Thread nD τ).loc main_arg6) (ix1 n) := funext fun n => cb2C_apply m c n
  have e8 : (fun h : Fin 128 => pb1C m c (ix2 h (0 : Fin 1))) = fun h => m ((c.tc : Thread nD τ).loc main_arg8) (ix1 h) := funext fun h => pb1C_apply m c h
  have e10 : (fun n : Fin 4 => pb2C m c (ix2 n (0 : Fin 1))) = fun n => m ((c.tc : Thread nD τ).loc main_arg10) (ix1 n) := funext fun n => pb2C_apply m c n
  show Cert.Cell.cell (fun k : Fin 6 => inpT m c (ix2 k l)) (fun k : Fin 4 => hidT m c (ix2 k l)) (fun n : Fin 4 => capsC m c (ix2 n (0 : Fin 1)))
      (fun h k => cw1A m c (ix2 h k)) (fun h : Fin 128 => cb1C m c (ix2 h (0 : Fin 1))) (fun n h => cw2A m c (ix2 n h)) (fun n : Fin 15 => cb2C m c (ix2 n (0 : Fin 1)))
      (fun h k => pw1A m c (ix2 h k)) (fun h : Fin 128 => pb1C m c (ix2 h (0 : Fin 1))) (fun n h => pw2A m c (ix2 n h)) (fun n : Fin 4 => pb2C m c (ix2 n (0 : Fin 1))) i
    = Cert.Cell.cell (fun k => m ((c.tc : Thread nD τ).loc main_arg0) (ix2 (⟨l.val, hl⟩ : Fin 500000) k)) (fun k => m ((c.tc : Thread nD τ).loc main_arg1) (ix2 (⟨l.val, hl⟩ : Fin 500000) k)) (fun n => m ((c.tc : Thread nD τ).loc main_arg2) (ix1 n))
      (fun h k => m ((c.tc : Thread nD τ).loc main_arg3) (ix2 h k)) (fun h => m ((c.tc : Thread nD τ).loc main_arg4) (ix1 h)) (fun n h => m ((c.tc : Thread nD τ).loc main_arg5) (ix2 n h)) (fun n => m ((c.tc : Thread nD τ).loc main_arg6) (ix1 n))
      (fun h k => m ((c.tc : Thread nD τ).loc main_arg7) (ix2 h k)) (fun h => m ((c.tc : Thread nD τ).loc main_arg8) (ix1 h)) (fun n h => m ((c.tc : Thread nD τ).loc main_arg9) (ix2 n h)) (fun n => m ((c.tc : Thread nD τ).loc main_arg10) (ix1 n)) i
  rw [e0, e1, e2, e4, e6, e8, e10, cw1A_eq m c, cw2A_eq m c, pw1A_eq m c, pw2A_eq m c]

/-- The first result is the second argument: entry (b, i) is the previous temperature of node `i` on lane `b`. -/
theorem v11_eq (c : Dev nD) :
    Pipeline.afterTail₀ cfgs (dats m) 0 (V0 m) [hostOps1] c main_v11 = m ((c.tc : Thread nD τ).loc main_arg1) := by
  rw [tail11 m c]
  funext j
  obtain ⟨b, i, rfl⟩ : ∃ (b : Fin 500000) (i : Fin 4), j = ix2 b i := ⟨j 0, j 1, eq_ix2 j⟩
  exact (cutT_apply (hidT m c) b i).trans (hidT_apply m c i _ b.isLt)

/-- The second result is the cell of every row of the arguments. -/
theorem v13_eq (c : Dev nD) :
    Pipeline.afterTail₀ cfgs (dats m) 0 (V0 m) [hostOps1] c main_v13
      = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail13 m c]
  funext j
  obtain ⟨b, i, rfl⟩ : ∃ (b : Fin 500000) (i : Fin 4), j = ix2 b i := ⟨j 0, j 1, eq_ix2 j⟩
  exact (cutT_apply _ b i).trans (cellT_real m c i _ b.isLt)

end Tail

/-- Every weakly fair execution of the idealized kernel program terminates with its first result at the second argument,
    its second result at the cell of every row of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = m ((c.tc : Thread nD τ).loc main_arg1)
      ∧ r.2.mem ((c.tc : Thread nD τ).loc main_v13) = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v11 (Pipeline.mem_restRefs_of main_v11 (by decide) (by decide))).trans (v11_eq m c),
      ((h c).2 main_v13 (Pipeline.mem_restRefs_of main_v13 (by decide) (by decide))).trans (v13_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩) (run_main m ρ)

end Cert.KernelIdeal.CellKernel

end
-- ==== Proof.RefTerm.lean ====
/-
  The reference program's result as one term of its argument arrays, stage by stage and at any float instance: the ten
  features of every row, a hidden layer (used by both networks), the fifteen conductances (the logistic function spelt as
  1 / (1 + exp (-z))), the power loss, the six temperature nodes, the table of conductance numbers, the heat flow (a
  gather of the conductances by the table, the temperature differences, their products summed over the six nodes), and
  the clipped step.  Each definition repeats the program's own operations in the program's order.
-/
import proofs.«160694_j13649406067340_1_alg».proof.Proof.Gen.ReferenceIdeal

noncomputable section

namespace Cert.ReferenceIdeal.CellRef

open Cert.ReferenceIdeal Cert.ReferenceIdeal.Gen Idealize.ShloMosaic

variable {F : FTy → Type} [FloatOps F]

/-- Features of every row: the inputs, then the previous temperatures, side by side. -/
def refFeat (a0 : FVec F S500000x6 .f32) (a1 : FVec F S500000x4 .f32) : FVec F S500000x10 .f32 :=
  concatenate S500000x10 1 [⟨S500000x6, a0⟩, ⟨S500000x4, a1⟩] concatenates_S500000x6_S500000x4_S500000x10_d1

/-- Temperature nodes of every row: the previous temperatures, then input columns 4 and 5. -/
def refTemps (a0 : FVec F S500000x6 .f32) (a1 : FVec F S500000x4 .f32) : FVec F S500000x6 .f32 :=
  concatenate S500000x6 1 [⟨S500000x4, a1⟩, ⟨S500000x2, extractStridedSlice S500000x2 ![0, 4] a0 slices_S500000x6_S500000x2_0_4⟩]
    concatenates_S500000x4_S500000x2_S500000x6_d1

/-- A hidden layer over all rows: tanh (x · wᵀ + b). -/
def refHidden (x : FVec F S500000x10 .f32) (w : FVec F S128x10 .f32) (b : FVec F S128 .f32) : FVec F S500000x128 .f32 :=
  Host.tanh (addf
    (Host.dotGeneral dot_S500000x10_S10x128_S500000x128_1_0_0_1_n_n none x (transpose S10x128 [1, 0] w transposes_S128x10_S10x128_1_0))
    (broadcastInDim S500000x128 ![0, 1] bcast_S1x128_S500000x128_0_1 (broadcastInDim S1x128 ![1] bcast_S128_S1x128_1 b)))

/-- The conductances of every row: 1 / (1 + exp (-(h · cw2ᵀ + cb2))). -/
def refConduct (x : FVec F S500000x10 .f32) (a3 : FVec F S128x10 .f32) (a4 : FVec F S128 .f32) (a5 : FVec F S15x128 .f32)
    (a6 : FVec F S15 .f32) : FVec F S500000x15 .f32 :=
  Host.divf (broadcastInDim S500000x15 ![] bcast_S_S500000x15 (constant S_ .f32 0x3F800000#32))
    (addf (broadcastInDim S500000x15 ![] bcast_S_S500000x15 (constant S_ .f32 0x3F800000#32))
      (Host.exp (Host.negf (addf
        (Host.dotGeneral dot_S500000x128_S128x15_S500000x15_1_0_0_1_n_n none (refHidden x a3 a4)
          (transpose S128x15 [1, 0] a5 transposes_S15x128_S128x15_1_0))
        (broadcastInDim S500000x15 ![0, 1] bcast_S1x15_S500000x15_0_1 (broadcastInDim S1x15 ![1] bcast_S15_S1x15_1 a6))))))

/-- The linear read-out of the power-loss network over all rows. -/
def refLossLin (x : FVec F S500000x10 .f32) (a7 : FVec F S128x10 .f32) (a8 : FVec F S128 .f32) (a9 : FVec F S4x128 .f32)
    (a10 : FVec F S4 .f32) : FVec F S500000x4 .f32 :=
  addf
    (Host.dotGeneral dot_S500000x128_S128x4_S500000x4_1_0_0_1_n_n none (refHidden x a7 a8)
      (transpose S128x4 [1, 0] a9 transposes_S4x128_S128x4_1_0))
    (broadcastInDim S500000x4 ![0, 1] bcast_S1x4_S500000x4_0_1 (broadcastInDim S1x4 ![1] bcast_S4_S1x4_1 a10))

/-- The power loss over all rows: sqrt (l · l + ε). -/
def refLoss (x : FVec F S500000x10 .f32) (a7 : FVec F S128x10 .f32) (a8 : FVec F S128 .f32) (a9 : FVec F S4x128 .f32)
    (a10 : FVec F S4 .f32) : FVec F S500000x4 .f32 :=
  Host.sqrt (addf (mulf (refLossLin x a7 a8 a9 a10) (refLossLin x a7 a8 a9 a10))
    (broadcastInDim S500000x4 ![] bcast_S_S500000x4 (constant S_ .f32 0x358637BD#32)))

/-- The table of conductance numbers as the program prints it. -/
def refTable : (⟨S4x6, .i32⟩ : BufTy).Contents (Elt F) := fun i => lit0 (S4x6.rowMajor i)

/-- The gather's start indices: a negative entry would wrap by fifteen (none is negative), one index per (node, node). -/
def refAdjIdx : (⟨S4x6x1, .i32⟩ : BufTy).Contents (Elt F) :=
  broadcastInDim S4x6x1 ![0, 1] bcast_S4x6_S4x6x1_0_1
    (select (cmpi .slt (refTable (F := F)) (broadcastInDim S4x6 ![] bcast_S_S4x6 (constantI S_ 32 0#32)))
      (addi (refTable (F := F)) (broadcastInDim S4x6 ![] bcast_S_S4x6 (constantI S_ 32 15#32)))
      (refTable (F := F)))

/-- The heat flow of every row: conductances gathered by the table, times the temperature differences, summed over
    the six temperature nodes from zero. -/
def refFlow (a0 : FVec F S500000x6 .f32) (a1 : FVec F S500000x4 .f32) (g : FVec F S500000x15 .f32) : FVec F S500000x4 .f32 :=
  Host.reduceAdd
    (mulf
      (subf
        (broadcastInDim S500000x4x6 ![0, 1, 2] bcast_S500000x1x6_S500000x4x6_0_1_2
          (broadcastInDim S500000x1x6 ![0, 2] bcast_S500000x6_S500000x1x6_0_2 (refTemps a0 a1)))
        (broadcastInDim S500000x4x6 ![0, 1, 2] bcast_S500000x4x1_S500000x4x6_0_1_2
          (broadcastInDim S500000x4x1 ![0, 1] bcast_S500000x4_S500000x4x1_0_1 a1)))
      (Host.gather gather_S500000x15_S4x6x1_S500000x4x6_0_1_n_n_1_2_5000001 g (refAdjIdx (F := F))))
    (constant S_ .f32 0x00000000#32) reducesTo_S500000x4x6_S500000x4_d2 h_S_

/-- The reference's second result: the clipped step of every row and node. -/
def refOut (a0 : FVec F S500000x6 .f32) (a1 : FVec F S500000x4 .f32) (a2 : FVec F S4 .f32) (a3 : FVec F S128x10 .f32)
    (a4 : FVec F S128 .f32) (a5 : FVec F S15x128 .f32) (a6 : FVec F S15 .f32) (a7 : FVec F S128x10 .f32) (a8 : FVec F S128 .f32)
    (a9 : FVec F S4x128 .f32) (a10 : FVec F S4 .f32) : FVec F S500000x4 .f32 :=
  minimumf (broadcastInDim S500000x4 ![] bcast_S_S500000x4 (id (constant S_ .f32 0x40A00000#32)))
    (maximumf (broadcastInDim S500000x4 ![] bcast_S_S500000x4 (id (constant S_ .f32 0xBF800000#32)))
      (addf a1
        (mulf
          (broadcastInDim S500000x4 ![0, 1] bcast_S1x4_S500000x4_0_1 (broadcastInDim S1x4 ![1] bcast_S4_S1x4_1
            (mulf (broadcastInDim S4 ![] bcast_S_S4 (constant S_ .f32 0x3F000000#32)) (Host.exp a2))))
          (addf (refFlow a0 a1 (refConduct (refFeat a0 a1) a3 a4 a5 a6)) (refLoss (refFeat a0 a1) a7 a8 a9 a10)))))

end Cert.ReferenceIdeal.CellRef

end
-- ==== Proof.RefOps.lean ====
/-
  The reference program run: its @main is a straight line of host operations, so every weakly fair execution ends with
  each buffer at the operations' composed value of the arguments; the second result is `refOut` of the arguments and the
  arguments are unchanged.

  `ops` is that straight line as a list, in the program's order: the sixty-seven operations of @main itself (the table of
  conductance numbers first, kept as the printed words read row by row and never evaluated), then the six of the
  clipping function at its one call, over the call's own buffers: the lower bound converted and spread over the rows,
  the maximum with the stepped temperatures, the upper bound converted and spread, the minimum.  Sequencing is
  associative and the callee's body is substituted at the call, so @main is `seq ops`.  Folding the operations'
  results over any starting contents and reading the last buffer gives, operation for operation, the stages of
  `refOut` (features, the two hidden layers, conductances, power loss, table indices, gathered conductances,
  temperature differences, their summed products, the scaled step, the two clips), so the two are the same term; an
  argument's buffer is written by no operation and keeps its contents.
-/
import proofs.«160694_j13649406067340_1_alg».proof.Proof.RefTerm
import Idealize.ShloMosaic.Lib.StableHlo.Run

noncomputable section

namespace Cert.ReferenceIdeal.CellRef

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the clipping call replaced by its body's six over the call's buffers. -/
abbrev ops : List (HloOp τ sig (Elt F)) :=
  [ nullary main_c (fun i => lit0 (S4x6.rowMajor i)),
    unary main_arg0 main_v0 ((extractStridedSlice S500000x2 ![0, 4] · slices_S500000x6_S500000x2_0_4) : (⟨S500000x6, .f32⟩ : BufTy).Contents (Elt F) → (⟨S500000x2, .f32⟩ : BufTy).Contents (Elt F)),
    binary main_arg1 main_v0 main_v1 ((fun a b => concatenate S500000x6 1 [⟨S500000x4, a⟩, ⟨S500000x2, b⟩] concatenates_S500000x4_S500000x2_S500000x6_d1) : (⟨S500000x4, .f32⟩ : BufTy).Contents (Elt F) → (⟨S500000x2, .f32⟩ : BufTy).Contents (Elt F) → (⟨S500000x6, .f32⟩ : BufTy).Contents (Elt F)),
    binary main_arg0 main_arg1 main_v2 ((fun a b => concatenate S500000x10 1 [⟨S500000x6, a⟩, ⟨S500000x4, b⟩] concatenates_S500000x6_S500000x4_S500000x10_d1) : (⟨S500000x6, .f32⟩ : BufTy).Contents (Elt F) → (⟨S500000x4, .f32⟩ : BufTy).Contents (Elt F) → (⟨S500000x10, .f32⟩ : BufTy).Contents (Elt F)),
    unary main_arg3 main_v3 ((transpose S10x128 [1, 0] · transposes_S128x10_S10x128_1_0) : (⟨S128x10, .f32⟩ : BufTy).Contents (Elt F) → (⟨S10x128, .f32⟩ : BufTy).Contents (Elt F)),
    binary main_v2 main_v3 main_v4 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S500000x128 ![0, 1] bcast_S1x128_S500000x128_0_1 : (⟨S1x128, .f32⟩ : BufTy).Contents (Elt F) → (⟨S500000x128, .f32⟩ : BufTy).Contents (Elt F)),
    binary main_v4 main_v6 main_v7 (addf : (⟨S500000x128, .f32⟩ : BufTy).Contents (Elt F) → (⟨S500000x128, .f32⟩ : BufTy).Contents (Elt F) → (⟨S500000x128, .f32⟩ : BufTy).Contents (Elt F)),
    unary main_v7 main_v8 (Host.tanh : (⟨S500000x128, .f32⟩ : BufTy).Contents (Elt F) → (⟨S500000x128, .f32⟩ : BufTy).Contents (Elt F)),
    unary main_arg5 main_v9 ((transpose S128x15 [1, 0] · transposes_S15x128_S128x15_1_0) : (⟨S15x128, .f32⟩ : BufTy).Contents (Elt F) → (⟨S128x15, .f32⟩ : BufTy).Contents (Elt F)),
    binary main_v8 main_v9 main_v10 ((fun l r => Host.dotGeneral dot_S500000x128_S128x15_S500000x15_1_0_0_1_n_n none l r) : (⟨S500000x128, .f32⟩ : BufTy).Contents (Elt F) → (⟨S128x15, .f32⟩ : BufTy).Contents (Elt F) → (⟨S500000x15, .f32⟩ : BufTy).Contents (Elt F)),
    unary main_arg6 main_v11 (broadcastInDim S1x15 ![1] bcast_S15_S1x15_1 : (⟨S15, .f32⟩ : BufTy).Contents (Elt F) → (⟨S1x15, .f32⟩ : BufTy).Contents (Elt F)),
    unary main_v11 main_v12 (broadcastInDim S500000x15 ![0, 1] bcast_S1x15_S500000x15_0_1 : (⟨S1x15, .f32⟩ : BufTy).Contents (Elt F) → (⟨S500000x15, .f32⟩ : BufTy).Contents (Elt F)),
    binary main_v10 main_v12 main_v13 (addf : (⟨S500000x15, .f32⟩ : BufTy).Contents (Elt F) → (⟨S500000x15, .f32⟩ : BufTy).Contents (Elt F) → (⟨S500000x15, .f32⟩ : BufTy).Contents (Elt F)),
    unary main_v13 main_v14 (Host.negf : (⟨S500000x15, .f32⟩ : BufTy).Contents (Elt F) → (⟨S500000x15, .f32⟩ : BufTy).Contents (Elt F)),
    unary main_v14 main_v15 (Host.exp : (⟨S500000x15, .f32⟩ : BufTy).Contents (Elt F) → (⟨S500000x15, .f32⟩ : BufTy).Contents (Elt F)),
    nullary main_cst (constant S_ .f32 0x3F800000#32),
    unary main_cst main_v16 (broadcastInDim S500000x15 ![] bcast_S_S500000x15 : (⟨S_, .f32⟩ : BufTy).Contents (Elt F) → (⟨S500000x15, .f32⟩ : BufTy).Contents (Elt F)),
    binary main_v16 main_v15 main_v17 (addf : (⟨S500000x15, .f32⟩ : BufTy).Contents (Elt F) → (⟨S500000x15, .f32⟩ : BufTy).Contents (Elt F) → (⟨S500000x15, .f32⟩ : BufTy).Contents (Elt F)),
    nullary main_cst_0 (constant S_ .f32 0x3F800000#32),
    unary main_cst_0 main_v18 (broadcastInDim S500000x15 ![] bcast_S_S500000x15 : (⟨S_, .f32⟩ : BufTy).Contents (Elt F) → (⟨S500000x15, .f32⟩ : BufTy).Contents (Elt F)),
    binary main_v18 main_v17 main_v19 (Host.divf : (⟨S500000x15, .f32⟩ : BufTy).Contents (Elt F) → (⟨S500000x15, .f32⟩ : BufTy).Contents (Elt F) → (⟨S500000x15, .f32⟩ : BufTy).Contents (Elt F)),
    unary main_arg7 main_v20 ((transpose S10x128 [1, 0] · transposes_S128x10_S10x128_1_0) : (⟨S128x10, .f32⟩ : BufTy).Contents (Elt F) → (⟨S10x128, .f32⟩ : BufTy).Contents (Elt F)),
    binary main_v2 main_v20 main_v21 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S500000x128 ![0, 1] bcast_S1x128_S500000x128_0_1 : (⟨S1x128, .f32⟩ : BufTy).Contents (Elt F) → (⟨S500000x128, .f32⟩ : BufTy).Contents (Elt F)),
    binary main_v21 main_v23 main_v24 (addf : (⟨S500000x128, .f32⟩ : BufTy).Contents (Elt F) → (⟨S500000x128, .f32⟩ : BufTy).Contents (Elt F) → (⟨S500000x128, .f32⟩ : BufTy).Contents (Elt F)),
    unary main_v24 main_v25 (Host.tanh : (⟨S500000x128, .f32⟩ : BufTy).Contents (Elt F) → (⟨S500000x128, .f32⟩ : BufTy).Contents (Elt F)),
    unary main_arg9 main_v26 ((transpose S128x4 [1, 0] · transposes_S4x128_S128x4_1_0) : (⟨S4x128, .f32⟩ : BufTy).Contents (Elt F) → (⟨S128x4, .f32⟩ : BufTy).Contents (Elt F)),
    binary main_v25 main_v26 main_v27 ((fun l r => Host.dotGeneral dot_S500000x128_S128x4_S500000x4_1_0_0_1_n_n none l r) : (⟨S500000x128, .f32⟩ : BufTy).Contents (Elt F) → (⟨S128x4, .f32⟩ : BufTy).Contents (Elt F) → (⟨S500000x4, .f32⟩ : BufTy).Contents (Elt F)),
    unary main_arg10 main_v28 (broadcastInDim S1x4 ![1] bcast_S4_S1x4_1 : (⟨S4, .f32⟩ : BufTy).Contents (Elt F) → (⟨S1x4, .f32⟩ : BufTy).Contents (Elt F)),
    unary main_v28 main_v29 (broadcastInDim S500000x4 ![0, 1] bcast_S1x4_S500000x4_0_1 : (⟨S1x4, .f32⟩ : BufTy).Contents (Elt F) → (⟨S500000x4, .f32⟩ : BufTy).Contents (Elt F)),
    binary main_v27 main_v29 main_v30 (addf : (⟨S500000x4, .f32⟩ : BufTy).Contents (Elt F) → (⟨S500000x4, .f32⟩ : BufTy).Contents (Elt F) → (⟨S500000x4, .f32⟩ : BufTy).Contents (Elt F)),
    binary main_v30 main_v30 main_v31 (mulf : (⟨S500000x4, .f32⟩ : BufTy).Contents (Elt F) → (⟨S500000x4, .f32⟩ : BufTy).Contents (Elt F) → (⟨S500000x4, .f32⟩ : BufTy).Contents (Elt F)),
    nullary main_cst_1 (constant S_ .f32 0x358637BD#32),
    unary main_cst_1 main_v32 (broadcastInDim S500000x4 ![] bcast_S_S500000x4 : (⟨S_, .f32⟩ : BufTy).Contents (Elt F) → (⟨S500000x4, .f32⟩ : BufTy).Contents (Elt F)),
    binary main_v31 main_v32 main_v33 (addf : (⟨S500000x4, .f32⟩ : BufTy).Contents (Elt F) → (⟨S500000x4, .f32⟩ : BufTy).Contents (Elt F) → (⟨S500000x4, .f32⟩ : BufTy).Contents (Elt F)),
    unary main_v33 main_v34 (Host.sqrt : (⟨S500000x4, .f32⟩ : BufTy).Contents (Elt F) → (⟨S500000x4, .f32⟩ : BufTy).Contents (Elt F)),
    nullary main_c_2 (constantI S_ 32 0#32),
    unary main_c_2 main_v35 (broadcastInDim S4x6 ![] bcast_S_S4x6 : (⟨S_, .i32⟩ : BufTy).Contents (Elt F) → (⟨S4x6, .i32⟩ : BufTy).Contents (Elt F)),
    binary main_c main_v35 main_v36 (cmpi .slt : (⟨S4x6, .i32⟩ : BufTy).Contents (Elt F) → (⟨S4x6, .i32⟩ : BufTy).Contents (Elt F) → (⟨S4x6, .i1⟩ : BufTy).Contents (Elt F)),
    nullary main_c_3 (constantI S_ 32 15#32),
    unary main_c_3 main_v37 (broadcastInDim S4x6 ![] bcast_S_S4x6 : (⟨S_, .i32⟩ : BufTy).Contents (Elt F) → (⟨S4x6, .i32⟩ : BufTy).Contents (Elt F)),
    binary main_c main_v37 main_v38 (addi : (⟨S4x6, .i32⟩ : BufTy).Contents (Elt F) → (⟨S4x6, .i32⟩ : BufTy).Contents (Elt F) → (⟨S4x6, .i32⟩ : BufTy).Contents (Elt F)),
    ternary main_v36 main_v38 main_c main_v39 (select : (⟨S4x6, .i1⟩ : BufTy).Contents (Elt F) → (⟨S4x6, .i32⟩ : BufTy).Contents (Elt F) → (⟨S4x6, .i32⟩ : BufTy).Contents (Elt F) → (⟨S4x6, .i32⟩ : BufTy).Contents (Elt F)),
    unary main_v39 main_v40 (broadcastInDim S4x6x1 ![0, 1] bcast_S4x6_S4x6x1_0_1 : (⟨S4x6, .i32⟩ : BufTy).Contents (Elt F) → (⟨S4x6x1, .i32⟩ : BufTy).Contents (Elt F)),
    binary main_v19 main_v40 main_v41 ((fun x i => Host.gather gather_S500000x15_S4x6x1_S500000x4x6_0_1_n_n_1_2_5000001 x i) : (⟨S500000x15, .f32⟩ : BufTy).Contents (Elt F) → (⟨S4x6x1, .i32⟩ : BufTy).Contents (Elt F) → (⟨S500000x4x6, .f32⟩ : BufTy).Contents (Elt F)),
    unary main_v1 main_v42 (broadcastInDim S500000x1x6 ![0, 2] bcast_S500000x6_S500000x1x6_0_2 : (⟨S500000x6, .f32⟩ : BufTy).Contents (Elt F) → (⟨S500000x1x6, .f32⟩ : BufTy).Contents (Elt F)),
    unary main_arg1 main_v43 (broadcastInDim S500000x4x1 ![0, 1] bcast_S500000x4_S500000x4x1_0_1 : (⟨S500000x4, .f32⟩ : BufTy).Contents (Elt F) → (⟨S500000x4x1, .f32⟩ : BufTy).Contents (Elt F)),
    unary main_v42 main_v44 (broadcastInDim S500000x4x6 ![0, 1, 2] bcast_S500000x1x6_S500000x4x6_0_1_2 : (⟨S500000x1x6, .f32⟩ : BufTy).Contents (Elt F) → (⟨S500000x4x6, .f32⟩ : BufTy).Contents (Elt F)),
    unary main_v43 main_v45 (broadcastInDim S500000x4x6 ![0, 1, 2] bcast_S500000x4x1_S500000x4x6_0_1_2 : (⟨S500000x4x1, .f32⟩ : BufTy).Contents (Elt F) → (⟨S500000x4x6, .f32⟩ : BufTy).Contents (Elt F)),
    binary main_v44 main_v45 main_v46 (subf : (⟨S500000x4x6, .f32⟩ : BufTy).Contents (Elt F) → (⟨S500000x4x6, .f32⟩ : BufTy).Contents (Elt F) → (⟨S500000x4x6, .f32⟩ : BufTy).Contents (Elt F)),
    binary main_v46 main_v41 main_v47 (mulf : (⟨S500000x4x6, .f32⟩ : BufTy).Contents (Elt F) → (⟨S500000x4x6, .f32⟩ : BufTy).Contents (Elt F) → (⟨S500000x4x6, .f32⟩ : BufTy).Contents (Elt F)),
    nullary main_cst_4 (constant S_ .f32 0x00000000#32),
    binary main_v47 main_cst_4 main_v48 ((fun x v => Host.reduceAdd x v reducesTo_S500000x4x6_S500000x4_d2 h_S_) : (⟨S500000x4x6, .f32⟩ : BufTy).Contents (Elt F) → (⟨S_, .f32⟩ : BufTy).Contents (Elt F) → (⟨S500000x4, .f32⟩ : BufTy).Contents (Elt F)),
    unary main_arg2 main_v49 (Host.exp : (⟨S4, .f32⟩ : BufTy).Contents (Elt F) → (⟨S4, .f32⟩ : BufTy).Contents (Elt F)),
    nullary main_cst_5 (constant S_ .f32 0x3F000000#32),
    unary main_cst_5 main_v50 (broadcastInDim S4 ![] bcast_S_S4 : (⟨S_, .f32⟩ : BufTy).Contents (Elt F) → (⟨S4, .f32⟩ : BufTy).Contents (Elt F)),
    binary main_v50 main_v49 main_v51 (mulf : (⟨S4, .f32⟩ : BufTy).Contents (Elt F) → (⟨S4, .f32⟩ : BufTy).Contents (Elt F) → (⟨S4, .f32⟩ : BufTy).Contents (Elt F)),
    binary main_v48 main_v34 main_v52 (addf : (⟨S500000x4, .f32⟩ : BufTy).Contents (Elt F) → (⟨S500000x4, .f32⟩ : BufTy).Contents (Elt F) → (⟨S500000x4, .f32⟩ : BufTy).Contents (Elt F)),
    unary main_v51 main_v53 (broadcastInDim S1x4 ![1] bcast_S4_S1x4_1 : (⟨S4, .f32⟩ : BufTy).Contents (Elt F) → (⟨S1x4, .f32⟩ : BufTy).Contents (Elt F)),
    unary main_v53 main_v54 (broadcastInDim S500000x4 ![0, 1] bcast_S1x4_S500000x4_0_1 : (⟨S1x4, .f32⟩ : BufTy).Contents (Elt F) → (⟨S500000x4, .f32⟩ : BufTy).Contents (Elt F)),
    binary main_v54 main_v52 main_v55 (mulf : (⟨S500000x4, .f32⟩ : BufTy).Contents (Elt F) → (⟨S500000x4, .f32⟩ : BufTy).Contents (Elt F) → (⟨S500000x4, .f32⟩ : BufTy).Contents (Elt F)),
    binary main_arg1 main_v55 main_v56 (addf : (⟨S500000x4, .f32⟩ : BufTy).Contents (Elt F) → (⟨S500000x4, .f32⟩ : BufTy).Contents (Elt F) → (⟨S500000x4, .f32⟩ : BufTy).Contents (Elt F)),
    nullary main_cst_6 (constant S_ .f32 0xBF800000#32),
    nullary main_cst_7 (constant S_ .f32 0x40A00000#32),
    TRef.unary (.of main_cst_6 : TRef sig ⟨S_, .f32⟩) main_call0.v0 id,
    TRef.unary main_call0.v0 main_call0.v1 (broadcastInDim S500000x4 ![] bcast_S_S500000x4),
    TRef.binary main_call0.v1 (.of main_v56 : TRef sig ⟨S500000x4, .f32⟩) main_call0.v2 maximumf,
    TRef.unary (.of main_cst_7 : TRef sig ⟨S_, .f32⟩) main_call0.v3 id,
    TRef.unary main_call0.v3 main_call0.v4 (broadcastInDim S500000x4 ![] bcast_S_S500000x4),
    TRef.binary main_call0.v4 main_call0.v2 main_call0.v5 minimumf ]

set_option maxRecDepth 4096 in
set_option maxHeartbeats 8000000 in
/-- @main is that straight line: both parts and the callee's body unfolded, binds reassociated, the trivial returns
    dropped, the two programs are the same chain of steps. -/
theorem main_eq (c : Dev nD) : main (F := F) c = seq ops := by
  simp only [main, main_part0, main_part1, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

attribute [local irreducible] Host.gather Host.reduceAdd in
set_option maxRecDepth 8192 in
set_option maxHeartbeats 4000000 in
/-- The fold of the operations at the last buffer is `refOut` of the starting contents of the eleven arguments: unrolled,
    each operation either writes the buffer asked for (and the question passes to its operands) or leaves it, and what
    comes out is `refOut`'s own nest of operations.  The gather and the row sum stay closed: nothing here looks inside
    them. -/
theorem out_eq (V : Valuation τ sig (Elt F)) :
    after ops V (main_v57 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp only [after_cons, after_nil]
  rfl

/-! No operation writes an argument's buffer, so the fold leaves each argument as it was. -/

set_option maxHeartbeats 4000000 in
theorem arg0_eq (V : Valuation τ sig (Elt F)) :
    after ops V (main_arg0 : DevRef τ sig) = V (main_arg0 : DevRef τ sig) := by
  after_results_simp

set_option maxHeartbeats 4000000 in
theorem arg1_eq (V : Valuation τ sig (Elt F)) :
    after ops V (main_arg1 : DevRef τ sig) = V (main_arg1 : DevRef τ sig) := by
  after_results_simp

set_option maxHeartbeats 4000000 in
theorem arg2_eq (V : Valuation τ sig (Elt F)) :
    after ops V (main_arg2 : DevRef τ sig) = V (main_arg2 : DevRef τ sig) := by
  after_results_simp

set_option maxHeartbeats 4000000 in
theorem arg3_eq (V : Valuation τ sig (Elt F)) :
    after ops V (main_arg3 : DevRef τ sig) = V (main_arg3 : DevRef τ sig) := by
  after_results_simp

set_option maxHeartbeats 4000000 in
theorem arg4_eq (V : Valuation τ sig (Elt F)) :
    after ops V (main_arg4 : DevRef τ sig) = V (main_arg4 : DevRef τ sig) := by
  after_results_simp

set_option maxHeartbeats 4000000 in
theorem arg5_eq (V : Valuation τ sig (Elt F)) :
    after ops V (main_arg5 : DevRef τ sig) = V (main_arg5 : DevRef τ sig) := by
  after_results_simp

set_option maxHeartbeats 4000000 in
theorem arg6_eq (V : Valuation τ sig (Elt F)) :
    after ops V (main_arg6 : DevRef τ sig) = V (main_arg6 : DevRef τ sig) := by
  after_results_simp

set_option maxHeartbeats 4000000 in
theorem arg7_eq (V : Valuation τ sig (Elt F)) :
    after ops V (main_arg7 : DevRef τ sig) = V (main_arg7 : DevRef τ sig) := by
  after_results_simp

set_option maxHeartbeats 4000000 in
theorem arg8_eq (V : Valuation τ sig (Elt F)) :
    after ops V (main_arg8 : DevRef τ sig) = V (main_arg8 : DevRef τ sig) := by
  after_results_simp

set_option maxHeartbeats 4000000 in
theorem arg9_eq (V : Valuation τ sig (Elt F)) :
    after ops V (main_arg9 : DevRef τ sig) = V (main_arg9 : DevRef τ sig) := by
  after_results_simp

set_option maxHeartbeats 4000000 in
theorem arg10_eq (V : Valuation τ sig (Elt F)) :
    after ops V (main_arg10 : DevRef τ sig) = V (main_arg10 : DevRef τ sig) := by
  after_results_simp

/-- Every weakly fair execution of the reference terminates with its computed result at `refOut` of the argument arrays
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v57).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.CellRef

end
-- ==== Proof.RefNets.lean ====
/-
  The reference's two networks read at one row: features, hidden layer, conductances and power loss of row `b` are the
  cell's of that row.

  Each array operation of the reference is read at one entry, outermost first.  The pointwise operations read the
  operands' entries.  The side-by-side join of the inputs (six columns) and the previous temperatures (four) reads the
  first at a column below six and the second, six columns earlier, otherwise.  A matrix product x · wᵀ at (b, h) is the
  sum over the contracted index k of x (b, k) · wᵀ (k, h), and the transposed weight wᵀ (k, h) is w (h, k); since the
  extended reals' product commutes, each summand is the cell's w (h, k) · x (b, k).  A bias vector, first made a one-row
  matrix and then copied down the rows, reads its own entry at the column.  The conductance's 1 / (1 + exp (-z)), with
  both ones the word of the float one copied to every entry, is the logistic function by its definition.
-/
import proofs.«160694_j13649406067340_1_alg».proof.Proof.RefTerm
import proofs.«160694_j13649406067340_1_alg».proof.Proof.Spec
import proofs.«160694_j13649406067340_1_alg».proof.Proof.LibPlainDot
import Idealize.ShloMosaic.PureOps.Ideal.Laws
import Idealize.ShloMosaic.Lib.Pipeline.Value
import Idealize.ShloMosaic.Lib.ValueLayout
import Idealize.ShloMosaic.Lib.IdealHost

noncomputable section

open scoped BigOperators

namespace Cert.ReferenceIdeal.CellRef

open Cert.ReferenceIdeal Cert.ReferenceIdeal.Gen Idealize.ShloMosaic Idealize.ShloMosaic.ValueIdx

/-! ## The host's pointwise functions at an entry, over the extended reals -/

theorem hostTanh_apply {s : Shape} {φ : FTy} (x : FVec Ideal s φ) (i : s.Idx) : Host.tanh x i = Ideal.tanh (x i) := rfl
theorem hostExp_apply {s : Shape} {φ : FTy} (x : FVec Ideal s φ) (i : s.Idx) : Host.exp x i = Ideal.exp (x i) := rfl
theorem hostSqrt_apply {s : Shape} {φ : FTy} (x : FVec Ideal s φ) (i : s.Idx) : Host.sqrt x i = Ideal.sqrt (x i) := rfl
theorem hostNegf_apply {s : Shape} {φ : FTy} (x : FVec Ideal s φ) (i : s.Idx) : Host.negf x i = -(x i) := rfl

/-- A float word copied to every entry of an array reads the word's value at each entry. -/
theorem splat_apply {T : Shape} (h : S_.BroadcastsInDim T ![]) (w : BitVec FTy.f32.bits) (j : T.Idx) :
    broadcastInDim T ![] h (constant (F := Ideal) S_ .f32 w) j = Ideal.ofBits .f32 w := by
  rw [broadcastInDim_scalar_apply]
  rfl

/-! ## The layout operations at an entry -/

/-- A matrix with its two axes exchanged reads the matrix at the exchanged coordinates. -/
theorem transpose_swap_apply {m n : Nat} (x : (⟨2, ![m, n]⟩ : Shape).Idx → EReal)
    (h : (⟨2, ![m, n]⟩ : Shape).Transposes [1, 0] ⟨2, ![n, m]⟩) (a : Fin n) (c : Fin m) :
    transpose ⟨2, ![n, m]⟩ [1, 0] x h (ix2 a c) = x (ix2 c a) :=
  transpose_apply [1, 0] x h (ix2 a c) (ix2 c a) (by
    intro d
    match d with
    | ⟨0, _⟩ => rfl
    | ⟨1, _⟩ => rfl)

/-- A vector made a one-row matrix and then copied down `R` rows reads, at row `r` and column `c`, its entry `c`. -/
theorem bias_rows_apply {R n : Nat} (v : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![R, n]⟩ ![0, 1]) (r : Fin R) (c : Fin n) :
    broadcastInDim ⟨2, ![R, n]⟩ ![0, 1] h2 (broadcastInDim ⟨2, ![1, n]⟩ ![1] h1 v) (ix2 r c) = v (ix1 c) := by
  have hc := c.isLt
  rw [broadcastInDim_apply ![0, 1] h2 _ (ix2 r c) (ix2 (0 : Fin 1) c) (by
      intro a
      match a with
      | ⟨0, _⟩ => rfl
      | ⟨1, _⟩ =>
        show c.val = if n = 1 then 0 else c.val
        split
        · omega
        · rfl),
    broadcastInDim_apply ![1] h1 v (ix2 (0 : Fin 1) c) (ix1 c) (by
      intro a
      match a with
      | ⟨0, _⟩ =>
        show c.val = if n = 1 then 0 else c.val
        split
        · omega
        · rfl)]

/-! ## The three matrix products at an entry -/

theorem dot_feat_apply (x : FVec Ideal S500000x10 .f32) (y : FVec Ideal S10x128 .f32) (b : Fin 500000) (h : Fin 128) :
    Host.dotGeneral dot_S500000x10_S10x128_S500000x128_1_0_0_1_n_n none x y (ix2 b h)
      = ∑ k : Fin 10, x (ix2 b k) * y (ix2 k h) :=
  Cert.LibPlainDot.dotGeneral_plain 500000 10 128 none _ x y b h

theorem dot_conduct_apply (x : FVec Ideal S500000x128 .f32) (y : FVec Ideal S128x15 .f32) (b : Fin 500000) (n : Fin 15) :
    Host.dotGeneral dot_S500000x128_S128x15_S500000x15_1_0_0_1_n_n none x y (ix2 b n)
      = ∑ h : Fin 128, x (ix2 b h) * y (ix2 h n) :=
  Cert.LibPlainDot.dotGeneral_plain 500000 128 15 none _ x y b n

theorem dot_loss_apply (x : FVec Ideal S500000x128 .f32) (y : FVec Ideal S128x4 .f32) (b : Fin 500000) (i : Fin 4) :
    Host.dotGeneral dot_S500000x128_S128x4_S500000x4_1_0_0_1_n_n none x y (ix2 b i)
      = ∑ h : Fin 128, x (ix2 b h) * y (ix2 h i) :=
  Cert.LibPlainDot.dotGeneral_plain 500000 128 4 none _ x y b i

/-! ## The stages at one row -/

theorem refFeat_apply (a0 : FVec Ideal S500000x6 .f32) (a1 : FVec Ideal S500000x4 .f32) (b : Fin 500000) (k : Fin 10) :
    refFeat a0 a1 (ix2 b k) = Cert.Cell.feat (fun k => a0 (ix2 b k)) (fun k => a1 (ix2 b k)) k := by
  unfold refFeat Cert.Cell.feat
  by_cases hk : k.val < 6
  · rw [dif_pos hk]
    exact concatenate_pair_apply_left (t := S500000x10) (s₁ := S500000x6) (s₂ := S500000x4) 1 a0 a1
      concatenates_S500000x6_S500000x4_S500000x10_d1 (ix2 b k) rfl (ix2 b ⟨k.val, hk⟩) (by
        intro c
        match c with
        | ⟨0, _⟩ => rfl
        | ⟨1, _⟩ => rfl)
  · rw [dif_neg hk]
    exact concatenate_pair_apply_right (t := S500000x10) (s₁ := S500000x6) (s₂ := S500000x4) 1 a0 a1
      concatenates_S500000x6_S500000x4_S500000x10_d1 (ix2 b k) rfl rfl (ix2 b ⟨k.val - 6, by omega⟩) (by
        intro c hc
        match c with
        | ⟨0, _⟩ => rfl
        | ⟨1, _⟩ => exact absurd rfl hc) (by
        show (k.val - 6) + 6 = k.val
        omega)

theorem refHidden_apply (x : FVec Ideal S500000x10 .f32) (w : FVec Ideal S128x10 .f32) (bb : FVec Ideal S128 .f32)
    (b : Fin 500000) (h : Fin 128) :
    refHidden x w bb (ix2 b h) = Cert.Cell.hidden (fun h k => w (ix2 h k)) (fun h => bb (ix1 h)) (fun k => x (ix2 b k)) h := by
  unfold refHidden Cert.Cell.hidden
  rw [hostTanh_apply, addf_apply, dot_feat_apply, bias_rows_apply]
  refine congrArg Ideal.tanh (congrArg (· + bb (ix1 h)) (Finset.sum_congr rfl fun k _ => ?_))
  rw [transpose_swap_apply]
  exact mul_comm _ _

theorem refConduct_apply (x : FVec Ideal S500000x10 .f32) (a3 : FVec Ideal S128x10 .f32) (a4 : FVec Ideal S128 .f32)
    (a5 : FVec Ideal S15x128 .f32) (a6 : FVec Ideal S15 .f32) (b : Fin 500000) (n : Fin 15) :
    refConduct x a3 a4 a5 a6 (ix2 b n)
      = Cert.Cell.conduct (fun h k => a3 (ix2 h k)) (fun h => a4 (ix1 h)) (fun n h => a5 (ix2 n h)) (fun n => a6 (ix1 n))
          (fun k => x (ix2 b k)) n := by
  unfold refConduct Cert.Cell.conduct Ideal.logistic
  rw [hostDivf_apply, addf_apply, hostExp_apply, hostNegf_apply, addf_apply, splat_apply, Ideal.ofBits_one_f32,
    dot_conduct_apply, bias_rows_apply]
  refine congrArg (fun z => Ideal.div 1 (1 + Ideal.exp (-z)))
    (congrArg (· + a6 (ix1 n)) (Finset.sum_congr rfl fun h _ => ?_))
  rw [refHidden_apply, transpose_swap_apply]
  exact mul_comm _ _

theorem refLossLin_apply (x : FVec Ideal S500000x10 .f32) (a7 : FVec Ideal S128x10 .f32) (a8 : FVec Ideal S128 .f32)
    (a9 : FVec Ideal S4x128 .f32) (a10 : FVec Ideal S4 .f32) (b : Fin 500000) (i : Fin 4) :
    refLossLin x a7 a8 a9 a10 (ix2 b i)
      = Cert.Cell.lossLin (fun h k => a7 (ix2 h k)) (fun h => a8 (ix1 h)) (fun n h => a9 (ix2 n h)) (fun n => a10 (ix1 n))
          (fun k => x (ix2 b k)) i := by
  unfold refLossLin Cert.Cell.lossLin
  rw [addf_apply, dot_loss_apply, bias_rows_apply]
  refine congrArg (· + a10 (ix1 i)) (Finset.sum_congr rfl fun h _ => ?_)
  rw [refHidden_apply, transpose_swap_apply]
  exact mul_comm _ _

theorem refLoss_apply (x : FVec Ideal S500000x10 .f32) (a7 : FVec Ideal S128x10 .f32) (a8 : FVec Ideal S128 .f32)
    (a9 : FVec Ideal S4x128 .f32) (a10 : FVec Ideal S4 .f32) (b : Fin 500000) (i : Fin 4) :
    refLoss x a7 a8 a9 a10 (ix2 b i)
      = Cert.Cell.loss (fun h k => a7 (ix2 h k)) (fun h => a8 (ix1 h)) (fun n h => a9 (ix2 n h)) (fun n => a10 (ix1 n))
          (fun k => x (ix2 b k)) i := by
  unfold refLoss Cert.Cell.loss
  rw [hostSqrt_apply, addf_apply, mulf_apply, splat_apply, refLossLin_apply]

end Cert.ReferenceIdeal.CellRef

end
-- ==== Proof.RefValue.lean ====
/-
  The reference's result is the cell of every row.

  Read at row b, the reference's six temperature nodes are the row's four previous temperatures followed by its inputs 4
  and 5: a concatenation along the feature axis whose second piece is the slice of the inputs from column 4 on.

  Its heat flow into node i is a sum over the six nodes, started from zero, of products
  (T j - hid i) · g (adj i j).  The two factors' operands are broadcasts along the node axes: the temperatures are
  repeated over the output nodes and the previous temperatures over the temperature nodes, so at (b, i, j) they read T j
  and hid i of row b.  The conductances come through a gather whose slices are whole columns of the fifteen conductances:
  at (b, i, j) it reads row b of the column that the table of start indices names for (i, j).  A start index is read as a
  signed number and clamped into 0..14; the table's twenty-four entries lie in 0..13, so none wraps and none is clamped,
  and the column is the spec's adj i j.

  The clipped step then reads off operation by operation: the two bounds and the factor 1/2 are scalars broadcast to every
  element, exp of the capacities is broadcast along the rows, and the flow, the conductances, the power loss and the
  features of a row are the spec's by the lemmas on the networks.
-/
import proofs.«160694_j13649406067340_1_alg».proof.Proof.RefNets

noncomputable section

open scoped BigOperators

namespace Cert.ReferenceIdeal.CellRef

open Cert.ReferenceIdeal Cert.ReferenceIdeal.Gen Idealize.ShloMosaic Idealize.ShloMosaic.ValueIdx

/-- The temperature nodes of row b: for j below 4 the concatenation reads its first piece, the previous temperatures, at
    (b, j); from 4 on it reads the second piece at (b, j - 4), which is the inputs at (b, 4 + (j - 4)). -/
theorem refTemps_apply (a0 : FVec Ideal S500000x6 .f32) (a1 : FVec Ideal S500000x4 .f32) (b : Fin 500000) (j : Fin 6) :
    refTemps a0 a1 (ix2 b j) = Cert.Cell.temps (fun k => a0 (ix2 b k)) (fun k => a1 (ix2 b k)) j := by
  unfold refTemps Cert.Cell.temps
  by_cases hj : j.val < 4
  · rw [dif_pos hj]
    refine concatenate_pair_apply_left (1 : Fin 2) a1 _ _ (ix2 b j) rfl (ix2 b ⟨j.val, hj⟩) ?_
    intro c
    match c with
    | ⟨0, _⟩ => rfl
    | ⟨1, _⟩ => rfl
  · rw [dif_neg hj]
    have hj2 : j.val - 4 < 2 := by omega
    refine (concatenate_pair_apply_right (s₂ := S500000x2) (1 : Fin 2) a1 _ _ (ix2 b j) rfl rfl
      (ix2 b (⟨j.val - 4, hj2⟩ : Fin 2)) ?_ ?_).trans ?_
    · intro c hc
      match c, hc with
      | ⟨0, _⟩, _ => rfl
      | ⟨1, _⟩, hc => exact absurd rfl hc
    · show (j.val - 4) + 4 = j.val
      omega
    · refine extractStridedSlice_apply _ a0 _ _ (ix2 b j) ?_
      intro c
      match c with
      | ⟨0, _⟩ => show b.val = 0 + b.val; omega
      | ⟨1, _⟩ => show j.val = 4 + (j.val - 4); omega

/-- One entry of the table of start indices, read as a signed number: the conductance number the spec's table gives the
    pair.  No entry is negative, so the wrap by fifteen never applies; each of the twenty-four entries is computed alone. -/
theorem refAdjIdx_entry (i : Fin 4) (k : Fin 6) :
    (refAdjIdx (F := Ideal) (ix3 i k (0 : Fin 1))).toInt.toNat = (Cert.Cell.adj i k).val := by
  fin_cases i <;> fin_cases k <;> rfl

/-- The gather at (b, i, k) reads the conductances at (b, adj i k).  On the row axis nothing is indexed and the slice is
    the whole axis, so the coordinate is the result's own b; on the conductance axis, which is collapsed, the coordinate
    is the start index at (i, k, 0) clamped into 0..14, and a number below 15 is its own clamp. -/
theorem gather_adj_apply (g : FVec Ideal S500000x15 .f32) (b : Fin 500000) (i : Fin 4) (k : Fin 6) :
    Host.gather gather_S500000x15_S4x6x1_S500000x4x6_0_1_n_n_1_2_5000001 g (refAdjIdx (F := Ideal)) (ix3 b i k)
      = g (ix2 b (Cert.Cell.adj i k)) := by
  unfold Host.gather
  refine congrArg g (funext fun a => Fin.ext ?_)
  show gather_S500000x15_S4x6x1_S500000x4x6_0_1_n_n_1_2_5000001.start (ix3 b i k) (refAdjIdx (F := Ideal)) a
      + gather_S500000x15_S4x6x1_S500000x4x6_0_1_n_n_1_2_5000001.batchCoord (ix3 b i k) a
      + gather_S500000x15_S4x6x1_S500000x4x6_0_1_n_n_1_2_5000001.offCoord (ix3 b i k) a = _
  rw [GatherDims.batchCoord_eq_zero _ _ _ List.not_mem_nil, Nat.add_zero]
  fin_cases a
  · -- the row axis: start 0, offset the result's first coordinate
    unfold GatherDims.start
    rw [dif_neg (by decide), Nat.zero_add]
    unfold GatherDims.offCoord
    rw [dif_pos (by decide)]
    rfl
  · -- the conductance axis: no offset, the start read at (i, k, 0)
    rw [GatherDims.offCoord_eq_zero _ _ _ (by decide), Nat.add_zero]
    unfold GatherDims.start
    rw [dif_pos (by decide)]
    have hsi : gather_S500000x15_S4x6x1_S500000x4x6_0_1_n_n_1_2_5000001.siIdx (ix3 b i k)
        ⟨List.idxOf (⟨1, by decide⟩ : Fin S500000x15.rank) gather_S500000x15_S4x6x1_S500000x4x6_0_1_n_n_1_2_5000001.startIndexMap,
          List.idxOf_lt_length_iff.2 (by decide)⟩ = ix3 i k (0 : Fin 1) := by
      funext c; refine Fin.ext ?_
      match c with
      | ⟨0, _⟩ => rfl
      | ⟨1, _⟩ => rfl
      | ⟨2, _⟩ => rfl
    rw [hsi, refAdjIdx_entry]
    show min (Cert.Cell.adj i k).val 14 = (Cert.Cell.adj i k).val
    have := (Cert.Cell.adj i k).isLt
    omega

/-- The heat flow of row b into node i: zero plus the sum over the six temperature nodes k of the product at (b, i, k),
    whose factors read T k - hid i and the conductance adj i k of row b. -/
theorem refFlow_apply (a0 : FVec Ideal S500000x6 .f32) (a1 : FVec Ideal S500000x4 .f32) (g : FVec Ideal S500000x15 .f32)
    (b : Fin 500000) (i : Fin 4) :
    refFlow a0 a1 g (ix2 b i) = Cert.Cell.flow (fun k => a0 (ix2 b k)) (fun k => a1 (ix2 b k)) (fun n => g (ix2 b n)) i := by
  unfold refFlow Cert.Cell.flow
  have hR : S500000x4x6.Reduces [2] S500000x4 := by decide
  refine (hostReduceAdd_apply _ _ _ _ _).trans ?_
  refine (Ideal.hostReduceAdd_single reducesTo_S500000x4x6_S500000x4_d2 hR _ _ (ix2 b i)).trans ?_
  rw [constant_apply, Ideal.ofBits_zero_f32, zero_add]
  refine Finset.sum_congr rfl fun k _ => ?_
  -- the summed index: (b, i) with k put on the last axis
  have hl : hR.lift (ix2 b i) k = ix3 b i k := by
    funext a; refine Fin.ext ?_
    match a with
    | ⟨0, _⟩ => rfl
    | ⟨1, _⟩ => rfl
    | ⟨2, _⟩ => rfl
  rw [hl]
  refine (mulf_apply _ _ _).trans (congrArg₂ (· * ·) ((subf_apply _ _ _).trans (congrArg₂ (· - ·) ?_ ?_)) ?_)
  · -- the temperatures, repeated over the output nodes: (b, i, k) reads (b, 0, k), which reads (b, k)
    refine (broadcastInDim_apply _ _ _ (ix3 b i k) (ix3 b (0 : Fin 1) k) ?_).trans ?_
    · intro a
      match a with
      | ⟨0, _⟩ => rfl
      | ⟨1, _⟩ => rfl
      | ⟨2, _⟩ => rfl
    · refine (broadcastInDim_apply _ _ _ (ix3 b (0 : Fin 1) k) (ix2 b k) ?_).trans (refTemps_apply a0 a1 b k)
      intro a
      match a with
      | ⟨0, _⟩ => rfl
      | ⟨1, _⟩ => rfl
  · -- the previous temperatures, repeated over the temperature nodes: (b, i, k) reads (b, i, 0), which reads (b, i)
    refine (broadcastInDim_apply _ _ _ (ix3 b i k) (ix3 b i (0 : Fin 1)) ?_).trans ?_
    · intro a
      match a with
      | ⟨0, _⟩ => rfl
      | ⟨1, _⟩ => rfl
      | ⟨2, _⟩ => rfl
    · refine broadcastInDim_apply _ _ _ (ix3 b i (0 : Fin 1)) (ix2 b i) ?_
      intro a
      match a with
      | ⟨0, _⟩ => rfl
      | ⟨1, _⟩ => rfl
  · exact gather_adj_apply g b i k

/-- The reference's result array is the cell laid over the argument arrays. -/
theorem refOut_eq (a0 : FVec Ideal S500000x6 .f32) (a1 : FVec Ideal S500000x4 .f32) (a2 : FVec Ideal S4 .f32)
    (a3 : FVec Ideal S128x10 .f32) (a4 : FVec Ideal S128 .f32) (a5 : FVec Ideal S15x128 .f32) (a6 : FVec Ideal S15 .f32)
    (a7 : FVec Ideal S128x10 .f32) (a8 : FVec Ideal S128 .f32) (a9 : FVec Ideal S4x128 .f32) (a10 : FVec Ideal S4 .f32) :
    refOut a0 a1 a2 a3 a4 a5 a6 a7 a8 a9 a10 = Cert.Cell.cellArr a0 a1 a2 a3 a4 a5 a6 a7 a8 a9 a10 := by
  funext j
  obtain ⟨b, i, rfl⟩ : ∃ (b : Fin 500000) (i : Fin 4), j = ix2 b i := ⟨j 0, j 1, eq_ix2 j⟩
  rw [Cert.Cell.cellArr_apply]
  unfold refOut Cert.Cell.cellAt Cert.Cell.cell
  -- the ten features of row b are the spec's
  have hfeat : (fun k => refFeat a0 a1 (ix2 b k))
      = Cert.Cell.feat (fun k => a0 (ix2 b k)) (fun k => a1 (ix2 b k)) := funext fun k => refFeat_apply a0 a1 b k
  -- min 5 (max (-1) (hid i + (1/2 · exp caps i) · (flow i + loss i))), operand by operand
  refine (minimumf_apply _ _ _).trans (congrArg₂ min ?_ ((maximumf_apply _ _ _).trans (congrArg₂ max ?_
    ((addf_apply _ _ _).trans (congrArg₂ (· + ·) rfl ((mulf_apply _ _ _).trans (congrArg₂ (· * ·) ?_
      ((addf_apply _ _ _).trans (congrArg₂ (· + ·) ?_ ?_)))))))))
  · exact broadcastInDim_scalar_apply _ _ _
  · exact broadcastInDim_scalar_apply _ _ _
  · -- 1/2 · exp caps, repeated over the rows: (b, i) reads (0, i), which reads i
    refine (broadcastInDim_apply _ _ _ (ix2 b i) (ix2 (0 : Fin 1) i) ?_).trans ?_
    · intro a
      match a with
      | ⟨0, _⟩ => rfl
      | ⟨1, _⟩ => rfl
    · refine (broadcastInDim_apply _ _ _ (ix2 (0 : Fin 1) i) (ix1 i) ?_).trans ?_
      · intro a
        match a with
        | ⟨0, _⟩ => rfl
      · exact (mulf_apply _ _ _).trans (congrArg₂ (· * ·) (broadcastInDim_scalar_apply _ _ _) rfl)
  · -- the flow of row b over the conductances of row b, which are the spec's at the spec's features
    refine (refFlow_apply a0 a1 _ b i).trans ?_
    refine congrArg (fun g => Cert.Cell.flow (fun k => a0 (ix2 b k)) (fun k => a1 (ix2 b k)) g i) (funext fun n => ?_)
    rw [refConduct_apply, hfeat]
  · rw [refLoss_apply, hfeat]

end Cert.ReferenceIdeal.CellRef

end
-- ==== Proof.lean ====
/-
  One explicit Euler step of a small thermal network, for 500000 independent rows: two 10 → 128 → {15, 4} networks give
  the pairwise conductances (through the logistic function) and the power losses (through a smooth absolute value), each
  of the four nodes gains heat from the six temperature nodes through the conductance a fixed symmetric table names,
  and the new temperature is clipped to [-1, 5].

  The kernel works lane-major: it transposes the two batch arrays, pads the batch with zero lanes to 31 blocks of 16384
  lanes, computes every lane's cell on the grid, and cuts the real 500000 lanes back out and transposes them; the
  reference works batch-major with whole-array operations.  Over the extended reals both are the function `Cert.Cell.cell`
  of each row (Proof/Spec.lean): the products of the two matrix multiplications differ only in the order of their
  factors, the six-term sum only in its grouping, the logistic function is spelt out on one side, and a change of float
  format is the identity.  No step needs the inputs finite.

  The frames of the two kernel programs are the generated ones; the reference has no kernel, so its frame is its run
  (Proof/RefOps.lean) with the result dropped.  The idealization rewrote nothing, so `preserves` is trivial.
-/
import proofs.«160694_j13649406067340_1_alg».proof.Defs
import proofs.«160694_j13649406067340_1_alg».proof.Proof.Gen.Kernel
import proofs.«160694_j13649406067340_1_alg».proof.Proof.Gen.Kernel.Frame
import proofs.«160694_j13649406067340_1_alg».proof.Proof.Gen.KernelIdeal
import proofs.«160694_j13649406067340_1_alg».proof.Proof.Gen.KernelIdeal.Frame
import proofs.«160694_j13649406067340_1_alg».proof.Proof.Gen.ReferenceIdeal
import proofs.«160694_j13649406067340_1_alg».proof.Proof.Gen.Pre_finite_inputs
import proofs.«160694_j13649406067340_1_alg».proof.Proof.KernelRun
import proofs.«160694_j13649406067340_1_alg».proof.Proof.RefOps
import proofs.«160694_j13649406067340_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the computed result forgotten. -/
theorem frame_referenceIdeal : Cert.frame_ReferenceIdeal := fun m ρ _ =>
  (θ_run Cert.ReferenceIdeal.defs _ _).mono (fun _ h c => (h c).2) (Cert.ReferenceIdeal.CellRef.run (F := Ideal) m ρ)

theorem preserves : Cert.preserves_Kernel_KernelIdeal := trivial

/-- Both programs end with the previous temperatures as first result and the cell of every row as second. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.Cell.cellArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    Cert.KernelIdeal.CellKernel.run m ρ, ?_⟩
  refine (θ_run Cert.ReferenceIdeal.defs _ _).mono (fun r h c => ?_) (Cert.ReferenceIdeal.CellRef.run (F := Ideal) m' ρ')
  obtain ⟨h57, k0, k1, k2, k3, k4, k5, k6, k7, k8, k9, k10⟩ := h c
  obtain ⟨e0, e1, e2, e3, e4, e5, e6, e7, e8, e9, e10⟩ := hagree c
  refine ⟨k1.trans e1, ?_, k0, k1, k2, k3, k4, k5, k6, k7, k8, k9, k10⟩
  refine h57.trans ((Cert.ReferenceIdeal.CellRef.refOut_eq _ _ _ _ _ _ _ _ _ _ _).trans ?_)
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
